-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg2 : IVec S800000 32) (main_v33 : IVec S_ 1) : IVec S_ 1 :=
  let main_c_12 : IVec S_ 32 := constantI S_ 32 4294917296#32
  let main_v34 : IVec S2x800000 32 := broadcastInDim S2x800000 ![] bcast_S_S2x800000 main_c_12
  let main_v35 : IVec S2x800000 1 := cmpi .sge main_arg1 main_v34
  let main_c_13 : IVec S_ 32 := constantI S_ 32 50000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  let main_c_15 : IVec S_ 32 := constantI S_ 32 4294167296#32
  let main_v41 : IVec S800000 32 := broadcastInDim S800000 ![] bcast_S_S800000 main_c_15
  let main_v42 : IVec S800000 1 := cmpi .sge main_arg2 main_v41
  let main_c_16 : IVec S_ 32 := constantI S_ 32 800000#32
  let main_v43 : IVec S800000 32 := broadcastInDim S800000 ![] bcast_S_S800000 main_c_16
  let main_v44 : IVec S800000 1 := cmpi .slt main_arg2 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg1 : IVec S2x800000 32) (main_arg2 : IVec S800000 32) (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S50000x96 .f32) (main_arg1 : IVec S2x800000 32) (main_arg2 : IVec S800000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_arg7 main_arg8 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S50000x32 : Shape := ⟨2, ![50000, 32]⟩
abbrev S50000x64 : Shape := ⟨2, ![50000, 64]⟩
abbrev S_ : Shape := ⟨0, ![]⟩
abbrev S800000x1 : Shape := ⟨2, ![800000, 1]⟩
abbrev S1x1 : Shape := ⟨2, ![1, 1]⟩
abbrev S800000x32 : Shape := ⟨2, ![800000, 32]⟩
abbrev S800000x64 : Shape := ⟨2, ![800000, 64]⟩
abbrev S800000x128 : Shape := ⟨2, ![800000, 128]⟩
abbrev S1x64 : Shape := ⟨2, ![1, 64]⟩
abbrev S16000x128 : Shape := ⟨2, ![16000, 128]⟩
abbrev S1x16000 : Shape := ⟨2, ![1, 16000]⟩
abbrev S16000x64 : Shape := ⟨2, ![16000, 64]⟩
abbrev S16000 : Shape := ⟨1, ![16000]⟩

abbrev nBuf : Space → Nat
  | .hbm => 141
  | .vmem => 16
  | .smem => 0
  | _ => 0

abbrev hbmTy0_0 (i : Nat) : BufTy := match i % 128 with
  | 0 => ⟨S50000x96, .f32⟩
  | 1 => ⟨S2x800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x32, .f32⟩
  | 14 => ⟨S50000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x32, .f32⟩
  | 34 => ⟨S800000x32, .i1⟩
  | 35 => ⟨S_, .f32⟩
  | 36 => ⟨S800000x32, .f32⟩
  | 37 => ⟨S800000x32, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x32, .f32⟩
  | 57 => ⟨S800000x32, .i1⟩
  | 58 => ⟨S_, .f32⟩
  | 59 => ⟨S800000x32, .f32⟩
  | 60 => ⟨S800000x32, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x64, .f32⟩
  | 80 => ⟨S800000x64, .i1⟩
  | 81 => ⟨S_, .f32⟩
  | 82 => ⟨S800000x64, .f32⟩
  | 83 => ⟨S800000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x64, .f32⟩
  | 103 => ⟨S800000x64, .i1⟩
  | 104 => ⟨S_, .f32⟩
  | 105 => ⟨S800000x64, .f32⟩
  | 106 => ⟨S800000x64, .f32⟩
  | 107 => ⟨S800000x64, .f32⟩
  | 108 => ⟨S800000x64, .f32⟩
  | 109 => ⟨S800000x128, .f32⟩
  | 110 => ⟨S1x64, .f32⟩
  | 111 => ⟨S1x64, .f32⟩
  | 112 => ⟨S1x1, .f32⟩
  | 113 => ⟨S1x64, .f32⟩
  | 114 => ⟨S1x800000, .f32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S1, .i32⟩
  | 125 => ⟨S_, .i32⟩
  | 126 => ⟨S800000x1, .i32⟩
  | 127 => ⟨S800000x1, .i1⟩
  | _ => ⟨S50000x96, .f32⟩

abbrev hbmTy0_1 (i : Nat) : BufTy := match i % 128 with
  | 0 => ⟨S1x1, .i32⟩
  | 1 => ⟨S800000x1, .i32⟩
  | 2 => ⟨S800000x1, .i1⟩
  | 3 => ⟨S800000x1, .i1⟩
  | 4 => ⟨S_, .i1⟩
  | 5 => ⟨S800000, .i1⟩
  | 6 => ⟨S800000, .f32⟩
  | 7 => ⟨S_, .f32⟩
  | 8 => ⟨S800000, .f32⟩
  | 9 => ⟨S800000, .f32⟩
  | 10 => ⟨S1x800000, .f32⟩
  | 11 => ⟨S1x800000, .f32⟩
  | 12 => ⟨S800000x1, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S16000x128, .f32⟩
  | .local _ .vmem, ⟨1, _⟩ => ⟨S16000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S1x16000, .f32⟩
  | .local _ .vmem, ⟨9, _⟩ => ⟨S1x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v7 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v8 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_cst : Ref sig .tc := ⟨.hbm, 135, rfl⟩
abbrev main_call4_v14 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x96_S50000x32_0_0 : S50000x96.Slices ![0, 0] S50000x32
  slices_S50000x96_S50000x64_0_32 : S50000x96.Slices ![0, 32] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x32_0 : S800000.BroadcastsInDim S800000x32 (![0] : Fin 1 → Fin S800000x32.rank)
  bcast_S_S800000x32 : S_.BroadcastsInDim S800000x32 (![] : Fin 0 → Fin S800000x32.rank)
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x32_S800000x32_S800000x64_d1 : Shape.Concatenates [S800000x32, S800000x32] S800000x64 1
  concatenates_S800000x64_S800000x64_S800000x128_d1 : Shape.Concatenates [S800000x64, S800000x64] S800000x128 1
  shapeCasts_S64_S1x64 : S64.ShapeCasts S1x64
  shapeCasts_S1_S1x1 : S1.ShapeCasts S1x1
  shapeCasts_S64x1_S1x64 : S64x1.ShapeCasts S1x64
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S64x64_S64x64_0_0 : ∀ a, (![0, 0] : Fin 2 → Nat) a + S64x64.size a ≤ S64x64.size a
  h_S64x64 : 0 < S64x64.numel
  reduces_S16000x64_S16000 : S16000x64.Reduces [1] S16000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16000_S1x16000 : S16000.ShapeCasts S1x16000
  inb_S1x16000_S1x16000_0_0 : ∀ a, (![0, 0] : Fin 2 → Nat) a + S1x16000.size a ≤ S1x16000.size a
  h_S1x16000 : 0 < S1x16000.numel
  shapeCasts_S800000_S1x800000 : S800000.ShapeCasts S1x800000
  shapeCasts_S1x16000_S1x16000 : S1x16000.ShapeCasts S1x16000
  shapeCasts_S1x800000_S800000x1 : S1x800000.ShapeCasts S800000x1
  gather_S50000x32_S800000x1_S800000x32_1_0_n_n_0_1_132_wf : GatherDims.WF S50000x32 S800000x1 S800000x32 [1] [0] [] [0] [] 1 ![1, 32]
  gather_S50000x64_S800000x1_S800000x64_1_0_n_n_0_1_164_wf : GatherDims.WF S50000x64 S800000x1 S800000x64 [1] [0] [] [0] [] 1 ![1, 64]
  dot_S16000x128_S128x64_S16000x64_1_0_0_1_n_n_wf : DotDims.WF S16000x128 S128x64 S16000x64 [1] [0] [0] [1] [] []
  dot_S16000x64_S64x64_S16000x64_1_0_0_1_n_n_wf : DotDims.WF S16000x64 S64x64 S16000x64 [1] [0] [0] [1] [] []
  gather_S800000_S800000x1_S800000_n_0_n_n_0_1_1_wf : GatherDims.WF S800000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .f32 = 32 ∨ (Rect.block (s := S800000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16000.size a ≤ S1x800000.size a
  hwx0_7 : ∀ i : grid0.Coords, EltTy.bits .f32 = 32 ∨ (Rect.block (s := S1x800000) S1x16000.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16000.size a ≤ S1x800000.size a
  hwx1_0 : ∀ i : grid1.Coords, EltTy.bits .f32 = 32 ∨ (Rect.block (s := S1x800000) S1x16000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16000.size a ≤ S1x800000.size a
  hwx1_1 : ∀ i : grid1.Coords, EltTy.bits .f32 = 32 ∨ (Rect.block (s := S1x800000) S1x16000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16000.size a ≤ S1x800000.size a
  hwx1_2 : ∀ i : grid1.Coords, EltTy.bits .f32 = 32 ∨ (Rect.block (s := S1x800000) S1x16000.size (cc1_transform_2 i) (hinb1_2 i)).WholeWords (EltTy.packing .f32)

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf

abbrev win0_0 : Pipeline.Window sig grid0 :=
  Pipeline.Window.ofSpec (Memref.whole main_v12) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x16000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S1x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x16000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x32 : Shape := ⟨2, ![50000, 32]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x64 : Shape := ⟨2, ![800000, 64]⟩
abbrev S800000x128 : Shape := ⟨2, ![800000, 128]⟩
abbrev S800000x2x64 : Shape := ⟨3, ![800000, 2, 64]⟩
abbrev S1x64 : Shape := ⟨2, ![1, 64]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S50000x32, .f32⟩
  | .hbm, ⟨10, _⟩ => ⟨S50000x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x32, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x32, .f32⟩
  | .hbm, ⟨33, _⟩ => ⟨S800000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S800000x128, .f32⟩
  | .hbm, ⟨53, _⟩ => ⟨S800000x2x64, .f32⟩
  | .hbm, ⟨54, _⟩ => ⟨S_, .f32⟩
  | .hbm, ⟨55, _⟩ => ⟨S800000x64, .f32⟩
  | .hbm, ⟨56, _⟩ => ⟨S800000x128, .f32⟩
  | .hbm, ⟨57, _⟩ => ⟨S800000x64, .f32⟩
  | .hbm, ⟨58, _⟩ => ⟨S1x64, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S1x64, .f32⟩
  | .hbm, ⟨66, _⟩ => ⟨S800000x64, .f32⟩
  | .hbm, ⟨67, _⟩ => ⟨S800000x64, .f32⟩
  | .hbm, ⟨68, _⟩ => ⟨S_, .f32⟩
  | .hbm, ⟨69, _⟩ => ⟨S800000x64, .f32⟩
  | .hbm, ⟨70, _⟩ => ⟨S800000x64, .f32⟩
  | .hbm, ⟨71, _⟩ => ⟨S800000x1, .f32⟩
  | .hbm, ⟨72, _⟩ => ⟨S1x1, .f32⟩
  | .hbm, ⟨73, _⟩ => ⟨S800000x1, .f32⟩
  | .hbm, ⟨74, _⟩ => ⟨S800000x1, .f32⟩
  | .hbm, ⟨75, _⟩ => ⟨S800000x1, .f32⟩
  | .hbm, ⟨76, _⟩ => ⟨S800000x1, .f32⟩
  | .hbm, ⟨77, _⟩ => ⟨S_, .f32⟩
  | .hbm, ⟨78, _⟩ => ⟨S800000x1, .f32⟩
  | .hbm, ⟨79, _⟩ => ⟨S800000x1, .f32⟩
  | .hbm, ⟨80, _⟩ => ⟨S_, .f32⟩
  | .hbm, ⟨81, _⟩ => ⟨S800000x1, .f32⟩
  | .hbm, ⟨82, _⟩ => ⟨S800000x1, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x1, .f32⟩
  | .hbm, ⟨92, _⟩ => ⟨S800000x1, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S50000x96_S50000x32_0_0 : S50000x96.Slices ![0, 0] S50000x32
  slices_S50000x96_S50000x64_0_32 : S50000x96.Slices ![0, 32] S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x64_d1 : Shape.Concatenates [S800000x32, S800000x32] S800000x64 1
  concatenates_S800000x64_S800000x64_S800000x128_d1 : Shape.Concatenates [S800000x64, S800000x64] S800000x128 1
  shapeCasts_S800000x128_S800000x2x64 : S800000x128.ShapeCasts S800000x2x64
  reducesTo_S800000x2x64_S800000x64_d1 : S800000x2x64.ReducesTo [1] S800000x64
  h_S_ : 0 < S_.numel
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  gather_S50000x32_S800000x1_S800000x32_1_0_n_n_0_1_132_wf : GatherDims.WF S50000x32 S800000x1 S800000x32 [1] [0] [] [0] [] 1 ![1, 32]
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  gather_S800000x1_S800000x1_S800000x1_1_0_n_n_0_1_11_wf : GatherDims.WF S800000x1 S800000x1 S800000x1 [1] [0] [] [0] [] 1 ![1, 1]

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def gather_S800000x1_S800000x1_S800000x1_1_0_n_n_0_1_11 : GatherDims S800000x1 S800000x1 S800000x1 where
  offsetDims := [1]
  collapsedSliceDims := [0]
  operandBatchingDims := []
  startIndicesBatchingDims := []
  startIndexMap := [0]
  indexVectorDim := 1
  sliceSizes := ![1, 1]
  wf := gather_S800000x1_S800000x1_S800000x1_1_0_n_n_0_1_11_wf

class Facts : Prop extends Facts₀ where

variable [Facts]
-- ==== Proof.IndexRange.lean ====
/-
  The stated domain of the integer inputs, read out of the printed precondition.

  The precondition's last two conjuncts say that every entry of the edge list lies in [-50000, 50000) and every
  entry of the reverse-edge table in [-800000, 800000): an index into a table of N rows, counted from the front
  (0 … N-1) or from the back (-N … -1).  Each prints as a signed `≥` and a signed `<` against a splat constant,
  an `and`, and a reduce-by-`and` over the whole array, so the precondition being 1 says the two comparisons
  hold at every entry.
-/
import proofs.«417381_j8976481648849_3_alg».proof.Pre_finite_inputs
import Idealize.ShloMosaic.Lib.ReduceAll
import Idealize.ShloMosaic.Lib.Affine
import Idealize.ShloMosaic.Lib.ValueIdx

noncomputable section

namespace Cert.Pre_finite_inputs.Range

open Cert.Pre_finite_inputs Idealize.ShloMosaic Idealize.ShloMosaic.ValueIdx

variable [Facts]
open Facts

instance : Subsingleton S_.Idx := ⟨fun a b => funext fun d => d.elim0⟩

theorem word_neg_50000 : (4294917296#32 : BitVec 32).toInt = -50000 := by decide
theorem word_50000 : (50000#32 : BitVec 32).toInt = 50000 := by decide
theorem word_neg_800000 : (4294167296#32 : BitVec 32).toInt = -800000 := by decide
theorem word_800000 : (800000#32 : BitVec 32).toInt = 800000 := by decide

/-- Where the precondition holds, every endpoint index lies in [-50000, 50000) and every reverse-edge entry in
    [-800000, 800000). -/
theorem index_ranges {F : FTy → Type} [FloatOps F]
    (x0 : FVec F S50000x96 .f32) (x1 : IVec S2x800000 32) (x2 : IVec S800000 32) (x3 : FVec F S128x64 .f32)
    (x4 : FVec F S64 .f32) (x5 : FVec F S64x64 .f32) (x6 : FVec F S64 .f32) (x7 : FVec F S64x1 .f32) (x8 : FVec F S1 .f32)
    (h : fn (F := F) x0 x1 x2 x3 x4 x5 x6 x7 x8 = fun _ => 1#1) :
    (∀ i, -50000 ≤ (x1 i).toInt ∧ (x1 i).toInt < 50000) ∧ (∀ i, -800000 ≤ (x2 i).toInt ∧ (x2 i).toInt < 800000) := by
  have h0 := congrFun h ix0
  dsimp only [fn, fn_part1, fn_part2] at h0
  obtain ⟨h1, hR⟩ := IntOp.andi_eq_one.1 h0
  obtain ⟨-, hE⟩ := IntOp.andi_eq_one.1 h1
  refine ⟨fun i => ?_, fun i => ?_⟩
  · have hi := Host.reduce_andi_all _ _ reducesTo_S2x800000_S_d0_1 h_S_ ix0 hE i
    obtain ⟨a, b⟩ := IntOp.andi_eq_one.1 hi
    have a' : (4294917296#32 : BitVec 32).toInt ≤ (x1 i).toInt := IntOp.cmpi_sge.1 a
    have b' : (x1 i).toInt < (50000#32 : BitVec 32).toInt := IntOp.cmpi_slt.1 b
    rw [word_neg_50000] at a'
    rw [word_50000] at b'
    exact ⟨a', b'⟩
  · have hi := Host.reduce_andi_all _ _ reducesTo_S800000_S_d0 h_S_ ix0 hR i
    obtain ⟨a, b⟩ := IntOp.andi_eq_one.1 hi
    have a' : (4294167296#32 : BitVec 32).toInt ≤ (x2 i).toInt := IntOp.cmpi_sge.1 a
    have b' : (x2 i).toInt < (800000#32 : BitVec 32).toInt := IntOp.cmpi_slt.1 b
    rw [word_neg_800000] at a'
    rw [word_800000] at b'
    exact ⟨a', b'⟩

end Cert.Pre_finite_inputs.Range

end
-- ==== Proof.EdgeWeight.lean ====
/-
  The learned edge weight, as one function of the inputs.

  For an edge `e` the feature row `feat e` (128 entries: the two endpoints' means side by side, then the
  sum of the two endpoints' dispersions) goes through a three-layer perceptron
      h⁰ₖ = max (Σⱼ featⱼ · W⁰ⱼₖ + b⁰ₖ) 0          (64 units)
      h¹ₖ = max (Σⱼ h⁰ⱼ · W¹ⱼₖ + b¹ₖ) 0            (64 units)
      z   = Σₖ h¹ₖ · w²ₖ + b²                        (one unit)
      w   = 1 / (1 + exp (−z))
  and the result for `e` is `w e · w (σ e)`, the weight of the edge times the weight of the edge `σ e`
  that the reverse-edge table points to.  Everything is read on the extended reals: a sum is a `Finset`
  sum (so its order is immaterial), a product the extended product, `max` the order's, and the last
  line is the extended-real logistic function.
-/
import Idealize.ShloMosaic.PureOps.Ideal
import Mathlib.Algebra.BigOperators.Group.Finset.Basic

noncomputable section

namespace EdgeWeight

open Idealize.ShloMosaic

/-- One hidden layer of `n` inputs and 64 units over every edge: affine, then the positive part. -/
def layer {n : Nat} (x : Fin 800000 → Fin n → EReal) (W : Fin n → Fin 64 → EReal) (b : Fin 64 → EReal)
    (e : Fin 800000) (k : Fin 64) : EReal :=
  max (∑ j : Fin n, x e j * W j k + b k) 0

/-- The output unit before the logistic function. -/
def logit (h : Fin 800000 → Fin 64 → EReal) (w2 : Fin 64 → EReal) (b2 : EReal) (e : Fin 800000) : EReal :=
  ∑ k : Fin 64, h e k * w2 k + b2

/-- The edge's weight: the perceptron's output through the logistic function. -/
def weight (feat : Fin 800000 → Fin 128 → EReal) (W0 : Fin 128 → Fin 64 → EReal) (b0 : Fin 64 → EReal)
    (W1 : Fin 64 → Fin 64 → EReal) (b1 : Fin 64 → EReal) (w2 : Fin 64 → EReal) (b2 : EReal) (e : Fin 800000) : EReal :=
  Ideal.logistic (logit (layer (layer feat W0 b0) W1 b1) w2 b2 e)

/-- Position `a` of an array of `N` entries named by a signed 32-bit word: the word's value, with everything
    below zero read as `0` and everything past the end as the last position. -/
def clampPos (N : Nat) (hN : 0 < N) (a : BitVec 32) : Fin N := ⟨min a.toInt.toNat (N - 1), by omega⟩

/-- An edge's weight times the weight of the edge its table entry names. -/
def gated (w : Fin 800000 → EReal) (σ : Fin 800000 → Fin 800000) (e : Fin 800000) : EReal := w e * w (σ e)

end EdgeWeight

end
-- ==== Proof.MlpRegion.lean ====
/-
  The first pallas_call: the row of edge weights.

  The feature table (800000 rows of 128) is cut into 50 blocks of 16000 rows; the two weight matrices, the
  three bias rows and the last layer's weight row are fetched whole.  At grid point `t` the body runs the
  perceptron on the 16000 rows of block `t` and writes their 16000 weights back as block `t` of the
  output row (1 × 800000).  The 50 blocks tile the row, so after the region entry `e` of the row is the
  weight of edge `e` (EdgeWeight.weight) of the arrays as the region found them.
-/
import proofs.«417381_j8976481648849_3_alg».proof.Proof.Gen.KernelIdeal.Frame
import proofs.«417381_j8976481648849_3_alg».proof.Proof.EdgeWeight
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.MlpRegion

open Cert.KernelIdeal Cert.KernelIdeal.Gen
open Idealize.ShloMosaic Idealize.ShloMosaic.TcCoe Idealize.SL.Sem Idealize.ShloMosaic.ValueIdx
open Idealize.ShloMosaic.Pipeline (Dat)

/-! ## The two products at an index -/

/-- The first product's operand indices at output index `i` and contraction index `q`: the left operand is read at
    (row of `i`, `q`), the right operand at (`q`, column of `i`). -/
theorem lhs_mm0_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
theorem lhs_mm0_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
theorem rhs_mm0_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
theorem rhs_mm0_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- The first product into the zero accumulator: entry (r, k) is the sum over the 128 features. -/
theorem matmul0_apply (x : FVec Ideal S16000x128 .f32) (w : FVec Ideal S128x64 .f32) (r : Fin 16000) (k : Fin 64) :
    matmul dot_S16000x128_S128x64_S16000x64_1_0_0_1_n_n (some .fp32) x w (constant S16000x64 .f32 0x00000000#32) (ix2 r k)
      = ∑ j : Fin 128, x (ix2 r j) * w (ix2 j k) := by
  show FloatOps.matmul _ _ _ _ _ _ = _
  rw [Ideal.matmul_constant_zero_apply, ← Equiv.sum_comp (contrEquiv1 dot_S16000x128_S128x64_S16000x64_1_0_0_1_n_n 128 rfl rfl).symm]
  refine Finset.sum_congr rfl fun j _ => ?_
  have hk := contrEquiv1_symm_val dot_S16000x128_S128x64_S16000x64_1_0_0_1_n_n 128 rfl rfl j
  have el : dot_S16000x128_S128x64_S16000x64_1_0_0_1_n_n.lhsIdx (ix2 r k) ((contrEquiv1 dot_S16000x128_S128x64_S16000x64_1_0_0_1_n_n 128 rfl rfl).symm j) = ix2 r j := funext fun a => Fin.ext (by
    match a with
    | ⟨0, _⟩ => exact lhs_mm0_0 _ _
    | ⟨1, _⟩ => exact (lhs_mm0_1 _ _).trans hk)
  have er : dot_S16000x128_S128x64_S16000x64_1_0_0_1_n_n.rhsIdx (ix2 r k) ((contrEquiv1 dot_S16000x128_S128x64_S16000x64_1_0_0_1_n_n 128 rfl rfl).symm j) = ix2 j k := funext fun a => Fin.ext (by
    match a with
    | ⟨0, _⟩ => exact (rhs_mm0_0 _ _).trans hk
    | ⟨1, _⟩ => exact rhs_mm0_1 _ _)
  rw [el, er]

/-- The second product's operand indices, likewise: the left operand at (row of `i`, `q`), the right at (`q`, column of `i`). -/
theorem lhs_mm1_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_mm1_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_mm1_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_mm1_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The second product into the zero accumulator: entry (r, k) is the sum over the 64 hidden units. -/
theorem matmul1_apply (x : FVec Ideal S16000x64 .f32) (w : FVec Ideal S64x64 .f32) (r : Fin 16000) (k : Fin 64) :
    matmul dot_S16000x64_S64x64_S16000x64_1_0_0_1_n_n (some .fp32) x w (constant S16000x64 .f32 0x00000000#32) (ix2 r k)
      = ∑ j : Fin 64, x (ix2 r j) * w (ix2 j k) := by
  show FloatOps.matmul _ _ _ _ _ _ = _
  rw [Ideal.matmul_constant_zero_apply, ← Equiv.sum_comp (contrEquiv1 dot_S16000x64_S64x64_S16000x64_1_0_0_1_n_n 64 rfl rfl).symm]
  refine Finset.sum_congr rfl fun j _ => ?_
  have hk := contrEquiv1_symm_val dot_S16000x64_S64x64_S16000x64_1_0_0_1_n_n 64 rfl rfl j
  have el : dot_S16000x64_S64x64_S16000x64_1_0_0_1_n_n.lhsIdx (ix2 r k) ((contrEquiv1 dot_S16000x64_S64x64_S16000x64_1_0_0_1_n_n 64 rfl rfl).symm j) = ix2 r j := funext fun a => Fin.ext (by
    match a with
    | ⟨0, _⟩ => exact lhs_mm1_0 _ _
    | ⟨1, _⟩ => exact (lhs_mm1_1 _ _).trans hk)
  have er : dot_S16000x64_S64x64_S16000x64_1_0_0_1_n_n.rhsIdx (ix2 r k) ((contrEquiv1 dot_S16000x64_S64x64_S16000x64_1_0_0_1_n_n 64 rfl rfl).symm j) = ix2 j k := funext fun a => Fin.ext (by
    match a with
    | ⟨0, _⟩ => exact (rhs_mm1_0 _ _).trans hk
    | ⟨1, _⟩ => exact rhs_mm1_1 _ _)
  rw [el, er]

/-! ## The other operations at an index -/

/-- The logistic function is taken entry by entry. -/
theorem logistic_apply (v : FVec Ideal S16000 .f32) (i : S16000.Idx) : logistic v i = Ideal.logistic (v i) := rfl

/-- The sum along a row: entry r is the sum of the row's 64 entries. -/
theorem rowsum_apply (v : FVec Ideal S16000x64 .f32) (r : Fin 16000) :
    multiReduction .add [1] S16000 v 0x00000000#32 reduces_S16000x64_S16000 (.inl rfl) rfl (ix1 r) = ∑ k : Fin 64, v (ix2 r k) := by
  refine (Ideal.multiReduction_add_single v _ reduces_S16000x64_S16000 _ _ _).trans ?_
  show ∑ k : Fin 64, v (reduces_S16000x64_S16000.lift (ix1 r) k) = _
  refine Finset.sum_congr rfl fun k _ => congrArg v (funext fun a => Fin.ext ?_)
  match a with
  | ⟨0, _⟩ => rfl
  | ⟨1, _⟩ => rfl

/-- The body's stored value at column r of its one row: the perceptron on row r of the feature block. -/
theorem payload_at (x0 : Vec Ideal S16000x128 .f32) (x2 : Vec Ideal S128x64 .f32) (x4 : Vec Ideal S1x64 .f32)
    (x10 : Vec Ideal S64x64 .f32) (x12 : Vec Ideal S1x64 .f32) (x18 : Vec Ideal S1x64 .f32) (x23 : Vec Ideal S1x1 .f32)
    (u : Fin 1) (r : Fin 16000) :
    k0_pay1 x0 x2 x4 x10 x12 x18 x23 (ix2 u r)
      = Ideal.logistic (∑ k : Fin 64,
          max (∑ j : Fin 64, max (∑ i : Fin 128, x0 (ix2 r i) * x2 (ix2 i j) + x4 (ix2 0 j)) 0 * x10 (ix2 j k) + x12 (ix2 0 k)) 0
            * x18 (ix2 0 k) + x23 (ix2 0 0)) := by
  unfold k0_pay1
  simp only [shapeCast_self]
  rw [shapeCast_a_1a_apply, logistic_apply, addf_apply, broadcast_apply, rowsum_apply]
  simp only [mulf_apply, maximumf_apply, addf_apply, broadcast_apply, broadcastTo_1b_ab_apply, matmul1_apply, matmul0_apply]
  have e23 : extractAt ![0, 0] x23 inpos_S1x1_p0_0 = x23 (ix2 0 0) := by
    unfold extractAt
    exact congrArg x23 (funext fun a => Fin.ext (by match a with | ⟨0, _⟩ => rfl | ⟨1, _⟩ => rfl))
  rw [e23]
  simp only [Ideal.ofBits_def, Ideal.ofBits_zero_f32]

/-- The row of weights of the seven arrays the perceptron reads: entry `(0, e)` is edge `e`'s weight. The bias
    rows and the last layer's weight row are 1 × 64 (1 × 1 for the last bias), read at their row 0. -/
def weightRow (feat : S800000x128.Idx → EReal) (W0 : S128x64.Idx → EReal) (b0 : S1x64.Idx → EReal)
    (W1 : S64x64.Idx → EReal) (b1 : S1x64.Idx → EReal) (w2 : S1x64.Idx → EReal) (b2 : S1x1.Idx → EReal) :
    S1x800000.Idx → EReal :=
  fun i => EdgeWeight.weight (fun e j => feat (ix2 e j)) (fun j k => W0 (ix2 j k)) (fun k => b0 (ix2 0 k))
    (fun j k => W1 (ix2 j k)) (fun k => b1 (ix2 0 k)) (fun k => w2 (ix2 0 k)) (b2 (ix2 0 0)) (i 1)

variable (V : (c : Dev nD) → (b : Ref sig .tc) → Buf (Elt Ideal) ((c : Thread nD τ).loc b))

/-- The seven arrays as the region finds them, each at its literal type. -/
abbrev feats (c : Dev nD) : S800000x128.Idx → EReal := V c main_v12
abbrev mat0 (c : Dev nD) : S128x64.Idx → EReal := V c main_arg3
abbrev bias0 (c : Dev nD) : S1x64.Idx → EReal := V c main_v13
abbrev mat1 (c : Dev nD) : S64x64.Idx → EReal := V c main_arg5
abbrev bias1 (c : Dev nD) : S1x64.Idx → EReal := V c main_v14
abbrev lastRow (c : Dev nD) : S1x64.Idx → EReal := V c main_v16
abbrev bias2 (c : Dev nD) : S1x1.Idx → EReal := V c main_v15

/-! ## The blocks -/

/-- The body's loads and its store all start at the origin of their buffers. -/
theorem origin_eq : (![0, 0] : Fin 2 → Nat) = fun _ => 0 := funext fun a => by fin_cases a <;> rfl

/-- Where the windows are at point t: the feature table's at block row t, the output row's at block column t,
    the six parameter arrays' at their one block. -/
theorem blocks_at : ∀ t : Fin cfg0.N,
      (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = t.val) :=
  (by decide +kernel : ∀ t : Fin grid0.N, _)

/-- Row r of the feature block at point t is row 16000·t + r of the feature table. -/
theorem feat_block (c : Dev nD) (t : Fin cfg0.N) (r : Fin 16000) (i : Fin 128) (e : Fin 800000)
    (he : e.val = t.val * 16000 + r.val) :
    (iblk0 V c 0 t : S16000x128.Idx → EReal) (ix2 r i) = feats V c (ix2 e i) := by
  obtain ⟨⟨e0, e1⟩, -⟩ := blocks_at t
  show feats V c (((cfg0.win 0).blk t).view.emb (ix2 r i)) = _
  refine congrArg (feats V c) (funext fun a => Fin.ext ?_)
  match a with
  | ⟨0, _⟩ => show win0_0.index t (0 : Fin 2) * 16000 + 1 * r.val = e.val; omega
  | ⟨1, _⟩ => show win0_0.index t (1 : Fin 2) * 128 + 1 * i.val = i.val; omega

/-- Each parameter array's block is the whole array, at every point. -/
theorem mat0_block (c : Dev nD) (t : Fin cfg0.N) : (iblk0 V c 1 t : S128x64.Idx → EReal) = mat0 V c := by
  obtain ⟨-, ⟨e0, e1⟩, -⟩ := blocks_at t
  funext j
  show mat0 V c (((cfg0.win 1).blk t).view.emb j) = _
  refine congrArg (mat0 V c) (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega
theorem bias0_block (c : Dev nD) (t : Fin cfg0.N) : (iblk0 V c 2 t : S1x64.Idx → EReal) = bias0 V c := by
  obtain ⟨-, -, ⟨e0, e1⟩, -⟩ := blocks_at t
  funext j
  show bias0 V c (((cfg0.win 2).blk t).view.emb j) = _
  refine congrArg (bias0 V c) (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega
theorem mat1_block (c : Dev nD) (t : Fin cfg0.N) : (iblk0 V c 3 t : S64x64.Idx → EReal) = mat1 V c := by
  obtain ⟨-, -, -, ⟨e0, e1⟩, -⟩ := blocks_at t
  funext j
  show mat1 V c (((cfg0.win 3).blk t).view.emb j) = _
  refine congrArg (mat1 V c) (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega
theorem bias1_block (c : Dev nD) (t : Fin cfg0.N) : (iblk0 V c 4 t : S1x64.Idx → EReal) = bias1 V c := by
  obtain ⟨-, -, -, -, ⟨e0, e1⟩, -⟩ := blocks_at t
  funext j
  show bias1 V c (((cfg0.win 4).blk t).view.emb j) = _
  refine congrArg (bias1 V c) (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega
theorem lastRow_block (c : Dev nD) (t : Fin cfg0.N) : (iblk0 V c 5 t : S1x64.Idx → EReal) = lastRow V c := by
  obtain ⟨-, -, -, -, -, ⟨e0, e1⟩, -⟩ := blocks_at t
  funext j
  show lastRow V c (((cfg0.win 5).blk t).view.emb j) = _
  refine congrArg (lastRow V c) (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega
theorem bias2_block (c : Dev nD) (t : Fin cfg0.N) : (iblk0 V c 6 t : S1x1.Idx → EReal) = bias2 V c := by
  obtain ⟨-, -, -, -, -, -, ⟨e0, e1⟩, -⟩ := blocks_at t
  funext j
  show bias2 V c (((cfg0.win 6).blk t).view.emb j) = _
  refine congrArg (bias2 V c) (funext fun a => Fin.ext ?_)
  match a with
  | ⟨0, _⟩ => show win0_6.index t (0 : Fin 2) * 1 + 1 * (j 0).val = (j 0).val; omega
  | ⟨1, _⟩ => show win0_6.index t (1 : Fin 2) * 1 + 1 * (j 1).val = (j 1).val; omega

/-- What point t writes back is block t of the row of weights. -/
theorem written_back (c : Dev nD) (t : Fin cfg0.N) :
    (dat0 V c).flushed 7 t = ((cfg0.win 7).blk t).view.read (Elt Ideal)
      (weightRow (feats V c) (mat0 V c) (bias0 V c) (mat1 V c) (bias1 V c) (lastRow V c) (bias2 V c)) := by
  show (cfg0.win 7).cut (grid0.coords t) ((dat0 V c).after 7 t) = _
  rw [after0_7]
  unfold out0_7
  rw [View.canon_unit_zero origin_eq]
  simp only [View.ld_unit_zero (S := S16000x128) origin_eq, View.ld_unit_zero (S := S128x64) origin_eq,
    View.ld_unit_zero (S := S1x64) origin_eq, View.ld_unit_zero (S := S64x64) origin_eq,
    View.ld_unit_zero (S := S1x1) origin_eq]
  funext j
  obtain ⟨u, r, rfl⟩ : ∃ (u : Fin 1) (r : Fin 16000), j = ix2 u r := ⟨j 0, j 1, eq_ix2 j⟩
  obtain ⟨-, -, -, -, -, -, -, ⟨e0, e1⟩⟩ := blocks_at t
  have ht : t.val < 50 := Nat.lt_of_lt_of_eq t.isLt N_0
  have he : (((cfg0.win 7).blk t).view.emb (ix2 u r) (1 : Fin 2)).val = t.val * 16000 + r.val := by
    show win0_7.index t (1 : Fin 2) * 16000 + 1 * r.val = _
    omega
  show k0_pay1 (iblk0 V c 0 t) (iblk0 V c 1 t) (iblk0 V c 2 t) (iblk0 V c 3 t) (iblk0 V c 4 t) (iblk0 V c 5 t) (iblk0 V c 6 t) (ix2 u r)
    = weightRow (feats V c) (mat0 V c) (bias0 V c) (mat1 V c) (bias1 V c) (lastRow V c) (bias2 V c) (((cfg0.win 7).blk t).view.emb (ix2 u r))
  rw [payload_at]
  simp only [feat_block V c t r _ _ he, mat0_block V c t, bias0_block V c t, mat1_block V c t, bias1_block V c t,
    lastRow_block V c t, bias2_block V c t]
  rfl

/-- A position of the output row lies in point t's block iff its column is among that block's 16000. -/
theorem mem_block (t : Fin cfg0.N) (i : S1x800000.Idx) :
    i ∈ ((cfg0.win 7).blk t).view.set ↔ ∀ a : Fin 2, win0_7.index t a * S1x16000.size a ≤ (i a).val ∧ (i a).val < win0_7.index t a * S1x16000.size a + S1x16000.size a := by
  show i ∈ ((View.whole main_v17).slice (win0_7.rect t)).set ↔ _
  rw [View.set_slice_whole, Rect.mem_set_unit]
  exact Iff.rfl

/-- Every position of the output row is written: column q by point q / 16000. -/
theorem covered (i : S1x800000.Idx) :
    ∃ t : Fin cfg0.N, (cfg0.win 7).flush t = true ∧ i ∈ ((cfg0.win 7).blk t).view.set := by
  have hi0 : (i 0).val < 1 := (i 0).isLt
  have hi1 : (i 1).val < 800000 := (i 1).isLt
  have ht : (i 1).val / 16000 < cfg0.N := Nat.lt_of_lt_of_eq (by omega) N_0.symm
  refine ⟨⟨(i 1).val / 16000, ht⟩, flush0_7 _, ?_⟩
  rw [mem_block]
  obtain ⟨-, -, -, -, -, -, -, ⟨e0, e1⟩⟩ := blocks_at ⟨(i 1).val / 16000, ht⟩
  intro a
  match a with
  | ⟨0, _⟩ =>
    show win0_7.index ⟨(i 1).val / 16000, ht⟩ (0 : Fin 2) * 1 ≤ (i 0).val ∧ (i 0).val < win0_7.index ⟨(i 1).val / 16000, ht⟩ (0 : Fin 2) * 1 + 1
    rw [e0]; omega
  | ⟨1, _⟩ =>
    show win0_7.index ⟨(i 1).val / 16000, ht⟩ (1 : Fin 2) * 16000 ≤ (i 1).val ∧ (i 1).val < win0_7.index ⟨(i 1).val / 16000, ht⟩ (1 : Fin 2) * 16000 + 16000
    rw [e1]; show (i 1).val / 16000 * 16000 ≤ (i 1).val ∧ (i 1).val < (i 1).val / 16000 * 16000 + 16000; omega

/-- After the region the output row holds every edge's weight, of the arrays as the region found them. -/
theorem row_after (c : Dev nD) :
    (dat0 V c).arrAt 7 cfg0.N
      = weightRow (feats V c) (mat0 V c) (bias0 V c) (mat1 V c) (bias1 V c) (lastRow V c) (bias2 V c) :=
  (dat0 V c).arrAt_eq_of_cover 7 _ (fun t _ => written_back V c t) covered

end Cert.KernelIdeal.MlpRegion

end
-- ==== Proof.GateRegion.lean ====
/-
  The second pallas_call: the row of gated weights.

  Its two input arrays are rows of 800000 entries, cut into 50 blocks of 16000 columns; at grid point `t`
  the body multiplies block `t` of the one by block `t` of the other, entry by entry, and writes the
  product back as block `t` of the output row.  The 50 blocks tile the row, so after the region the
  output row is the entrywise product of the two input rows as the region found them.
-/
import proofs.«417381_j8976481648849_3_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.GateRegion

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The entrywise product of two rows. -/
abbrev rowProd (a b : S1x800000.Idx → EReal) : S1x800000.Idx → EReal := fun i => a i * b i

/-- The row of weights as the region finds it (the first pallas_call's output). -/
abbrev weights (c : Dev nD) : S1x800000.Idx → EReal := V c main_v17
/-- The row of reverse-edge weights as the region finds it (the host's gather of the weights). -/
abbrev partners (c : Dev nD) : S1x800000.Idx → EReal := V c main_v20

theorem origin_eq : (![0, 0] : Fin 2 → Nat) = fun _ => 0 := funext fun a => by fin_cases a <;> rfl

/-- The body's one stored value is the entrywise product of its two loaded blocks (the casts between equal
    shapes change nothing). -/
theorem payload_eq (x0 x1 : Vec Ideal S1x16000 .f32) : k1_pay1 x0 x1 = fun j => x0 j * x1 j := by
  unfold k1_pay1
  simp only [shapeCast_self]
  rfl

/-- The three windows move together: at point `t` each is at block row 0, block column `t`. -/
theorem blocks_at : ∀ t : Fin cfg1.N,
      win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- What point `t` writes back is block `t` of the product of the two input rows. -/
theorem written_back (c : Dev nD) (t : Fin cfg1.N) :
    (dat1 V c).flushed 2 t = ((cfg1.win 2).blk t).view.read (Elt Ideal) (rowProd (weights V c) (partners V c)) := by
  show (cfg1.win 2).cut (grid1.coords t) ((dat1 V c).after 2 t) = _
  rw [after1_2]
  unfold out1_2
  rw [View.canon_unit_zero origin_eq]
  simp only [View.ld_unit_zero (S := S1x16000) origin_eq]
  rw [payload_eq]
  obtain ⟨e0, e1, e2, e3, e4, e5⟩ := blocks_at t
  funext j
  show weights V c (((cfg1.win 0).blk t).view.emb j) * partners V c (((cfg1.win 1).blk t).view.emb j)
    = weights V c (((cfg1.win 2).blk t).view.emb j) * partners V c (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 1 + 1 * (j 0).val = win1_2.index t (0 : Fin 2) * 1 + 1 * (j 0).val; omega
    | ⟨1, _⟩ => show win1_0.index t (1 : Fin 2) * 16000 + 1 * (j 1).val = win1_2.index t (1 : Fin 2) * 16000 + 1 * (j 1).val; omega
  have h1 : ((cfg1.win 1).blk t).view.emb j = ((cfg1.win 2).blk t).view.emb j := by
    funext a; apply Fin.ext
    match a with
    | ⟨0, _⟩ => show win1_1.index t (0 : Fin 2) * 1 + 1 * (j 0).val = win1_2.index t (0 : Fin 2) * 1 + 1 * (j 0).val; omega
    | ⟨1, _⟩ => show win1_1.index t (1 : Fin 2) * 16000 + 1 * (j 1).val = win1_2.index t (1 : Fin 2) * 16000 + 1 * (j 1).val; omega
  rw [h0, h1]

/-- A position of the output row lies in point `t`'s block iff its column is among that block's 16000. -/
theorem mem_block (t : Fin cfg1.N) (i : S1x800000.Idx) :
    i ∈ ((cfg1.win 2).blk t).view.set ↔ ∀ a : Fin 2, win1_2.index t a * S1x16000.size a ≤ (i a).val ∧ (i a).val < win1_2.index t a * S1x16000.size a + S1x16000.size a := by
  show i ∈ ((View.whole main_v21).slice (win1_2.rect t)).set ↔ _
  rw [View.set_slice_whole, Rect.mem_set_unit]
  exact Iff.rfl

/-- Every position of the output row is written: column `q` by point `q / 16000`. -/
theorem covered (i : S1x800000.Idx) :
    ∃ t : Fin cfg1.N, (cfg1.win 2).flush t = true ∧ i ∈ ((cfg1.win 2).blk t).view.set := by
  have hi0 : (i 0).val < 1 := (i 0).isLt
  have hi1 : (i 1).val < 800000 := (i 1).isLt
  have ht : (i 1).val / 16000 < cfg1.N := Nat.lt_of_lt_of_eq (by omega) N_1.symm
  refine ⟨⟨(i 1).val / 16000, ht⟩, flush1_2 _, ?_⟩
  rw [mem_block]
  obtain ⟨-, -, -, -, e4, e5⟩ := blocks_at ⟨(i 1).val / 16000, ht⟩
  intro a
  match a with
  | ⟨0, _⟩ =>
    show win1_2.index ⟨(i 1).val / 16000, ht⟩ (0 : Fin 2) * 1 ≤ (i 0).val ∧ (i 0).val < win1_2.index ⟨(i 1).val / 16000, ht⟩ (0 : Fin 2) * 1 + 1
    rw [e4]; omega
  | ⟨1, _⟩ =>
    show win1_2.index ⟨(i 1).val / 16000, ht⟩ (1 : Fin 2) * 16000 ≤ (i 1).val ∧ (i 1).val < win1_2.index ⟨(i 1).val / 16000, ht⟩ (1 : Fin 2) * 16000 + 16000
    rw [e5]; show (i 1).val / 16000 * 16000 ≤ (i 1).val ∧ (i 1).val < (i 1).val / 16000 * 16000 + 16000; omega

/-- After the region the output row is the entrywise product of the two input rows as the region found them. -/
theorem row_after (c : Dev nD) : (dat1 V c).arrAt 2 cfg1.N = rowProd (weights V c) (partners V c) :=
  (dat1 V c).arrAt_eq_of_cover 2 _ (fun t _ => written_back V c t) covered

end Cert.KernelIdeal.GateRegion

end
-- ==== Proof.KernelHost.lean ====
/-
  The kernel program's host side, read back: what each array holds when a pallas_call is entered and what
  the result buffer holds at the end, as terms of the launch contents.

  Before the first call the host slices the node table into means (32 columns) and dispersions (64 columns),
  takes the rows named by the edges' two endpoint lists, and joins them into the feature table; each take
  replaces a row whose (wrapped) index falls outside the table by a not-a-number fill, which does not happen
  when every index lies in [-N, N).  Between the calls it takes the weights named by the reverse-edge table.
  After the second call it reshapes the row of products into a column.
-/
import proofs.«417381_j8976481648849_3_alg».proof.Proof.Gen.KernelIdeal.Frame
import proofs.«417381_j8976481648849_3_alg».proof.Proof.MlpRegion
import proofs.«417381_j8976481648849_3_alg».proof.Proof.GateRegion
import Idealize.ShloMosaic.Lib.StableHlo.Run
import Idealize.ShloMosaic.Lib.StableHlo.Predicate
import Idealize.ShloMosaic.PureOps.Ideal
import Idealize.ShloMosaic.Lib.ValueIdx
import Idealize.ShloMosaic.Lib.ReduceAll

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- A signed index list wrapped once by the table's length `n` (a negative entry counts from the end), laid as
    the column of start positions a gather takes. -/
def startColumn (n : BitVec 32) (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 n))) r)

/-- The edges' first endpoints: row 0 of the edge list. -/
def heads (ei : IVec S2x800000 32) : IVec S800000 32 :=
  shapeCast S800000 (extractStridedSlice S1x800000 ![0, 0] ei slices_S2x800000_S1x800000_0_0) shapeCasts_S1x800000_S800000
/-- The edges' second endpoints: row 1 of the edge list. -/
def tails (ei : IVec S2x800000 32) : IVec S800000 32 :=
  shapeCast S800000 (extractStridedSlice S1x800000 ![1, 0] ei slices_S2x800000_S1x800000_1_0) shapeCasts_S1x800000_S800000

/-- The nodes' means and dispersions: columns 0–31 and 32–95 of the node table. -/
def means (x : FVec Ideal S50000x96 .f32) : FVec Ideal S50000x32 .f32 := extractStridedSlice S50000x32 ![0, 0] x slices_S50000x96_S50000x32_0_0
def dispersions (x : FVec Ideal S50000x96 .f32) : FVec Ideal S50000x64 .f32 := extractStridedSlice S50000x64 ![0, 32] x slices_S50000x96_S50000x64_0_32

/-- The feature table: per edge, the two endpoints' means side by side, then the sum of their dispersions. -/
def featureTable (x : FVec Ideal S50000x96 .f32) (ei : IVec S2x800000 32) : FVec Ideal S800000x128 .f32 :=
  concatenate S800000x128 1
    [⟨S800000x64, concatenate S800000x64 1
        [⟨S800000x32, Host.gather gather_S50000x32_S800000x1_S800000x32_1_0_n_n_0_1_132 (means x) (startColumn 50000#32 (heads ei))⟩,
         ⟨S800000x32, Host.gather gather_S50000x32_S800000x1_S800000x32_1_0_n_n_0_1_132 (means x) (startColumn 50000#32 (tails ei))⟩]
        concatenates_S800000x32_S800000x32_S800000x64_d1⟩,
     ⟨S800000x64, addf (Host.gather gather_S50000x64_S800000x1_S800000x64_1_0_n_n_0_1_164 (dispersions x) (startColumn 50000#32 (heads ei)))
        (Host.gather gather_S50000x64_S800000x1_S800000x64_1_0_n_n_0_1_164 (dispersions x) (startColumn 50000#32 (tails ei)))⟩]
    concatenates_S800000x64_S800000x64_S800000x128_d1

/-- The weights the reverse-edge table names, from the row of weights `w`. -/
def partnerRow (w : S1x800000.Idx → EReal) (rev : IVec S800000 32) : S1x800000.Idx → EReal :=
  shapeCast S1x800000
    (Host.gather gather_S800000_S800000x1_S800000_n_0_n_n_0_1_1 (shapeCast S800000 w shapeCasts_S1x800000_S800000) (startColumn 800000#32 rev))
    shapeCasts_S800000_S1x800000

variable (m : (ℓ : Loc nD τ sig) → Buf (Elt Ideal) ℓ) (ρ : Dev nD → PrngReg)

/-- The launch contents of the arguments, each at its literal type. -/
abbrev nodeTable (c : Dev nD) : FVec Ideal S50000x96 .f32 := m ((c.tc : Thread nD τ).loc main_arg0)
abbrev edgeList (c : Dev nD) : IVec S2x800000 32 := m ((c.tc : Thread nD τ).loc main_arg1)
abbrev revTable (c : Dev nD) : IVec S800000 32 := m ((c.tc : Thread nD τ).loc main_arg2)
abbrev argW0 (c : Dev nD) : FVec Ideal S128x64 .f32 := m ((c.tc : Thread nD τ).loc main_arg3)
abbrev argB0 (c : Dev nD) : FVec Ideal S64 .f32 := m ((c.tc : Thread nD τ).loc main_arg4)
abbrev argW1 (c : Dev nD) : FVec Ideal S64x64 .f32 := m ((c.tc : Thread nD τ).loc main_arg5)
abbrev argB1 (c : Dev nD) : FVec Ideal S64 .f32 := m ((c.tc : Thread nD τ).loc main_arg6)
abbrev argW2 (c : Dev nD) : FVec Ideal S64x1 .f32 := m ((c.tc : Thread nD τ).loc main_arg7)
abbrev argB2 (c : Dev nD) : FVec Ideal S1 .f32 := m ((c.tc : Thread nD τ).loc main_arg8)

/-- Every endpoint index names a node, counting from the front or (negative) from the back. -/
def EndpointsInRange (ei : IVec S2x800000 32) : Prop := ∀ i, -50000 ≤ (ei i).toInt ∧ (ei i).toInt < 50000
/-- Every reverse-edge entry names an edge, counting from the front or (negative) from the back. -/
def ReverseInRange (rev : IVec S800000 32) : Prop := ∀ i, -800000 ≤ (rev i).toInt ∧ (rev i).toInt < 800000

/-! ## Reading the fold at a buffer

A stretch of host operations leaves every buffer it does not write as it found it; a pallas_call leaves every
buffer that is not one of its arrays.  So the fold at an argument's buffer walks back to the launch contents,
and the fold at a buffer one operation wrote is that operation's value of the contents before it. -/

/-- No operation of the literal stretch writes the buffer: the fold at it is the contents before the stretch. -/
macro "stretch_keeps" : tactic => `(tactic|
  (refine StableHlo.after_of_forall_not_mem _ _ (List.forall_iff_forall_mem.mp ?_)
   simp only [hostOps0, hostOps0_1, hostOps0_2, hostOps0_3, hostOps0_4, hostOps0_5, hostOps1, hostOps1_1, hostOps1_2, hostOps2,
     List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-- Walks the fold at a buffer back through the stretches, and the first pallas_call, that do not write it. -/
macro "walk_back" : tactic => `(tactic|
  repeat (first
    | refine Eq.trans (by stretch_keeps) ?_
    | refine Eq.trans (W7_of_ne _ _ _ _ (by decide)) ?_))

/-! ## The take under the range hypothesis

A take in fill mode wraps a negative index once by the table's length, tests the wrapped index against
[0, N-1], gathers, and keeps the gathered row where the test holds.  For an index in [-N, N) the wrapped index
is in [0, N-1], so the test holds at every row and the take is the plain gather. -/

open Idealize.ShloMosaic.ValueIdx in
/-- A word in [-N, N), wrapped once by N when negative, lands in [0, N-1]. -/
theorem wrapped_in_range (a n : BitVec 32) (N : Int) (hn : n.toInt = N) (h0 : 0 < N) (hN : N ≤ 2 ^ 30)
    (h : -N ≤ a.toInt ∧ a.toInt < N) :
    0 ≤ (Scalar.select (IntOp.cmpi .slt a 0#32) (IntOp.addi a n) a).toInt
      ∧ (Scalar.select (IntOp.cmpi .slt a 0#32) (IntOp.addi a n) a).toInt ≤ N - 1 := by
  have hz : (0#32 : BitVec 32).toInt = 0 := by decide
  by_cases hneg : a.toInt < 0
  · have hc : IntOp.cmpi .slt a 0#32 = 1#1 := IntOp.cmpi_slt.2 (by rw [hz]; exact hneg)
    rw [hc, select_one]
    show 0 ≤ (a + n).toInt ∧ (a + n).toInt ≤ N - 1
    rw [BitVec.toInt_add, hn, Int.bmod_eq_of_le_mul_two (by omega) (by omega)]
    omega
  · have hc : IntOp.cmpi .slt a 0#32 ≠ 1#1 := fun e => hneg (by have := IntOp.cmpi_slt.1 e; rwa [hz] at this)
    have hw : Scalar.select (IntOp.cmpi .slt a 0#32) (IntOp.addi a n) a = a := if_neg hc
    rw [hw]; omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The take's test, row by row: the start position lies in [0, nm1] (the `and` of the two comparisons, reduced
    over the column's one entry). -/
def inTable (nm1 : BitVec 32) (col : IVec S800000x1 32) : IVec S800000 1 :=
  Host.reduce IntOp.andi
    (andi (cmpi .sge col (broadcastInDim S800000x1 ![] bcast_S_S800000x1 (constantI S_ 32 0#32)))
          (cmpi .sle col (broadcastInDim S800000x1 ![0, 1] bcast_S1x1_S800000x1_0_1
            (broadcastInDim S1x1 ![1] bcast_S1_S1x1_1 (constantI S1 32 nm1)))))
    (constantI S_ 1 1#1) reducesTo_S800000x1_S800000_d1 h_S_

/-- Where every start position lies in [0, nm1] the test is 1 at every row. -/
theorem inTable_ones (nm1 : BitVec 32) (col : IVec S800000x1 32)
    (h : ∀ j, 0 ≤ (col j).toInt ∧ (col j).toInt ≤ nm1.toInt) : inTable nm1 col = fun _ => 1#1 := by
  funext j
  unfold inTable
  rw [Host.reduce_eq_foldl]
  refine foldl_andi_ones _ (fun i => ?_) _
  have hz : (0#32 : BitVec 32).toInt = 0 := by decide
  exact IntOp.andi_eq_one.2 ⟨IntOp.cmpi_sge.2 (le_of_eq_of_le hz (h i).1), IntOp.cmpi_sle.2 (h i).2⟩

/-- The start column of an index list in [-N, N) lies in [0, N-1]. -/
theorem startColumn_range (n : BitVec 32) (r : IVec S800000 32) (N : Int) (hn : n.toInt = N) (h0 : 0 < N) (hN : N ≤ 2 ^ 30)
    (h : ∀ i, -N ≤ (r i).toInt ∧ (r i).toInt < N) (j : S800000x1.Idx) :
    0 ≤ (startColumn n r j).toInt ∧ (startColumn n r j).toInt ≤ N - 1 :=
  wrapped_in_range (r _) n N hn h0 hN (h _)

/-- The three takes as the program spells them: the gathered rows where the start position is in the table, the
    not-a-number fill elsewhere. -/
def take32 (x : FVec Ideal S50000x32 .f32) (r : IVec S800000 32) : FVec Ideal S800000x32 .f32 :=
  select (broadcastInDim S800000x32 ![0] bcast_S800000_S800000x32_0 (inTable 49999#32 (startColumn 50000#32 r)))
    (Host.gather gather_S50000x32_S800000x1_S800000x32_1_0_n_n_0_1_132 x (startColumn 50000#32 r))
    (broadcastInDim S800000x32 ![] bcast_S_S800000x32 (constant (F := Ideal) S_ .f32 0x7FC00000#32))
def take64 (x : FVec Ideal S50000x64 .f32) (r : IVec S800000 32) : FVec Ideal S800000x64 .f32 :=
  select (broadcastInDim S800000x64 ![0] bcast_S800000_S800000x64_0 (inTable 49999#32 (startColumn 50000#32 r)))
    (Host.gather gather_S50000x64_S800000x1_S800000x64_1_0_n_n_0_1_164 x (startColumn 50000#32 r))
    (broadcastInDim S800000x64 ![] bcast_S_S800000x64 (constant (F := Ideal) S_ .f32 0x7FC00000#32))
def take1 (x : FVec Ideal S800000 .f32) (r : IVec S800000 32) : FVec Ideal S800000 .f32 :=
  select (inTable 799999#32 (startColumn 800000#32 r))
    (Host.gather gather_S800000_S800000x1_S800000_n_0_n_n_0_1_1 x (startColumn 800000#32 r))
    (broadcastInDim S800000 ![] bcast_S_S800000 (constant (F := Ideal) S_ .f32 0x7FC00000#32))

open Idealize.ShloMosaic.ValueIdx in
theorem take32_eq (x : FVec Ideal S50000x32 .f32) (r : IVec S800000 32)
    (h : ∀ i, -50000 ≤ (r i).toInt ∧ (r i).toInt < 50000) :
    take32 x r = Host.gather gather_S50000x32_S800000x1_S800000x32_1_0_n_n_0_1_132 x (startColumn 50000#32 r) := by
  unfold take32
  rw [inTable_ones 49999#32 _ (startColumn_range 50000#32 r 50000 (by decide) (by decide) (by decide) h)]
  funext i
  exact select_one _ _
open Idealize.ShloMosaic.ValueIdx in
theorem take64_eq (x : FVec Ideal S50000x64 .f32) (r : IVec S800000 32)
    (h : ∀ i, -50000 ≤ (r i).toInt ∧ (r i).toInt < 50000) :
    take64 x r = Host.gather gather_S50000x64_S800000x1_S800000x64_1_0_n_n_0_1_164 x (startColumn 50000#32 r) := by
  unfold take64
  rw [inTable_ones 49999#32 _ (startColumn_range 50000#32 r 50000 (by decide) (by decide) (by decide) h)]
  funext i
  exact select_one _ _
open Idealize.ShloMosaic.ValueIdx in
theorem take1_eq (x : FVec Ideal S800000 .f32) (r : IVec S800000 32)
    (h : ∀ i, -800000 ≤ (r i).toInt ∧ (r i).toInt < 800000) :
    take1 x r = Host.gather gather_S800000_S800000x1_S800000_n_0_n_n_0_1_1 x (startColumn 800000#32 r) := by
  unfold take1
  rw [inTable_ones 799999#32 _ (startColumn_range 800000#32 r 800000 (by decide) (by decide) (by decide) h)]
  funext i
  exact select_one _ _

/-- The feature table of its four gathered parts. -/
def assemble (a b : FVec Ideal S800000x32 .f32) (u v : FVec Ideal S800000x64 .f32) : FVec Ideal S800000x128 .f32 :=
  concatenate S800000x128 1
    [⟨S800000x64, concatenate S800000x64 1 [⟨S800000x32, a⟩, ⟨S800000x32, b⟩] concatenates_S800000x32_S800000x32_S800000x64_d1⟩,
     ⟨S800000x64, addf u v⟩]
    concatenates_S800000x64_S800000x64_S800000x128_d1

theorem assemble_congr {a a' b b' : FVec Ideal S800000x32 .f32} {u u' v v' : FVec Ideal S800000x64 .f32}
    (ha : a = a') (hb : b = b') (hu : u = u') (hv : v = v') : assemble a b u v = assemble a' b' u' v' := by
  subst ha hb hu hv; rfl

theorem heads_range (ei : IVec S2x800000 32) (hE : EndpointsInRange ei) (i : S800000.Idx) :
    -50000 ≤ (heads ei i).toInt ∧ (heads ei i).toInt < 50000 := hE _
theorem tails_range (ei : IVec S2x800000 32) (hE : EndpointsInRange ei) (i : S800000.Idx) :
    -50000 ≤ (tails ei i).toInt ∧ (tails ei i).toInt < 50000 := hE _

section Stretches

variable (W : Valuation τ sig (Elt Ideal))

/-- A value moved to its buffer's own type and back is the value. -/
theorem ofBuf_toBuf {T : BufTy} (x : TRef sig T) (v : T.Contents (Elt Ideal)) : x.ofBuf (x.toBuf v) = v := by
  unfold TRef.ofBuf TRef.toBuf
  rw [cast_cast]
  rfl

/-- Closes a stretch's effect at one buffer: the fold unrolled to the operations' functions of the contents
    before the stretch, the moves between a value's type and its buffer's dropped. -/
macro "stretch_effect" : tactic => `(tactic|
  (after_results
   try simp only [ofBuf_toBuf]
   try simp only [TRef.ofBuf, TRef.toBuf, cast_eq]
   rfl))

/-- The four slices of the arguments, over any contents `W` before them. -/
theorem sliced_heads : (after hostOps0 W (Proc.devRef .tc main_v1) : IVec S800000 32)
    = heads (W (Proc.devRef .tc main_arg1)) := by after_results; rfl
theorem sliced_tails : (after hostOps0 W (Proc.devRef .tc main_v3) : IVec S800000 32)
    = tails (W (Proc.devRef .tc main_arg1)) := by after_results; rfl
theorem sliced_means : (after hostOps0 W (Proc.devRef .tc main_v4) : FVec Ideal S50000x32 .f32)
    = means (W (Proc.devRef .tc main_arg0)) := by after_results; rfl
theorem sliced_dispersions : (after hostOps0 W (Proc.devRef .tc main_v5) : FVec Ideal S50000x64 .f32)
    = dispersions (W (Proc.devRef .tc main_arg0)) := by after_results; rfl

/-! The four takes before the first pallas_call and the one between the two, over any contents `W` before them
    (the reduction and the gather are kept folded: the equation never looks inside them). -/

attribute [local irreducible] Host.reduce Host.gather in
theorem took_heads_means : (after hostOps0_1 W (Proc.devRef .tc main_v6) : FVec Ideal S800000x32 .f32)
    = take32 (W (Proc.devRef .tc main_v4)) (W (Proc.devRef .tc main_v1)) := by stretch_effect
attribute [local irreducible] Host.reduce Host.gather in
theorem took_tails_means : (after hostOps0_2 W (Proc.devRef .tc main_v7) : FVec Ideal S800000x32 .f32)
    = take32 (W (Proc.devRef .tc main_v4)) (W (Proc.devRef .tc main_v3)) := by stretch_effect
attribute [local irreducible] Host.reduce Host.gather in
theorem took_heads_dispersions : (after hostOps0_3 W (Proc.devRef .tc main_v8) : FVec Ideal S800000x64 .f32)
    = take64 (W (Proc.devRef .tc main_v5)) (W (Proc.devRef .tc main_v1)) := by stretch_effect
attribute [local irreducible] Host.reduce Host.gather in
theorem took_tails_dispersions : (after hostOps0_4 W (Proc.devRef .tc main_v9) : FVec Ideal S800000x64 .f32)
    = take64 (W (Proc.devRef .tc main_v5)) (W (Proc.devRef .tc main_v3)) := by stretch_effect
attribute [local irreducible] Host.reduce Host.gather in
theorem took_partners : (after hostOps1_1 W (Proc.devRef .tc main_v19) : FVec Ideal S800000 .f32)
    = take1 (W (Proc.devRef .tc main_v18)) (W (Proc.devRef .tc main_arg2)) := by stretch_effect

/-- The two concatenates and the add that build the feature table, over any contents `W` before them. -/
theorem joined : (after hostOps0_5 W (Proc.devRef .tc main_v12) : FVec Ideal S800000x128 .f32)
    = assemble (W (Proc.devRef .tc main_v6)) (W (Proc.devRef .tc main_v7)) (W (Proc.devRef .tc main_v8)) (W (Proc.devRef .tc main_v9)) := by
  after_results; rfl

/-- The reshapes around the take between the two pallas_calls, over any contents `W` before them. -/
theorem row_as_vector : (after hostOps1 W (Proc.devRef .tc main_v18) : FVec Ideal S800000 .f32)
    = shapeCast S800000 (W (Proc.devRef .tc main_v17) : S1x800000.Idx → EReal) shapeCasts_S1x800000_S800000 := by after_results; rfl
theorem vector_as_row : (after hostOps1_2 W (Proc.devRef .tc main_v20) : S1x800000.Idx → EReal)
    = shapeCast S1x800000 (W (Proc.devRef .tc main_v19) : S800000.Idx → EReal) shapeCasts_S800000_S1x800000 := by after_results; rfl

/-- The four reshapes before the first pallas_call, over any contents `W` before them. -/
theorem reshaped_bias0 : (after hostOps0_5 W (Proc.devRef .tc main_v13) : S1x64.Idx → EReal)
    = shapeCast S1x64 (W (Proc.devRef .tc main_arg4) : S64.Idx → EReal) shapeCasts_S64_S1x64 := by after_results; rfl
theorem reshaped_bias1 : (after hostOps0_5 W (Proc.devRef .tc main_v14) : S1x64.Idx → EReal)
    = shapeCast S1x64 (W (Proc.devRef .tc main_arg6) : S64.Idx → EReal) shapeCasts_S64_S1x64 := by after_results; rfl
theorem reshaped_bias2 : (after hostOps0_5 W (Proc.devRef .tc main_v15) : S1x1.Idx → EReal)
    = shapeCast S1x1 (W (Proc.devRef .tc main_arg8) : S1.Idx → EReal) shapeCasts_S1_S1x1 := by after_results; rfl
theorem reshaped_lastRow : (after hostOps0_5 W (Proc.devRef .tc main_v16) : S1x64.Idx → EReal)
    = shapeCast S1x64 (W (Proc.devRef .tc main_arg7) : S64x1.Idx → EReal) shapeCasts_S64x1_S1x64 := by after_results; rfl

/-- The last reshape, over any contents `W` before it. -/
theorem reshaped_result : (after hostOps2 W (Proc.devRef .tc main_v22) : S800000x1.Idx → EReal)
    = shapeCast S800000x1 (W (Proc.devRef .tc main_v21) : S1x800000.Idx → EReal) shapeCasts_S1x800000_S800000x1 := by
  after_results; rfl

end Stretches

/-! ## What the first pallas_call finds -/

theorem entry0_features (c : Dev nD) (hE : EndpointsInRange (edgeList m c)) :
    MlpRegion.feats (V6 m ρ) c = featureTable (nodeTable m c) (edgeList m c) := by
  -- the four slices after the first stretch
  have hh : (W1 m ρ c (Proc.devRef .tc main_v1) : IVec S800000 32) = heads (edgeList m c) := sliced_heads (W0 m ρ c)
  have ht : (W1 m ρ c (Proc.devRef .tc main_v3) : IVec S800000 32) = tails (edgeList m c) := sliced_tails (W0 m ρ c)
  have hm : (W1 m ρ c (Proc.devRef .tc main_v4) : FVec Ideal S50000x32 .f32) = means (nodeTable m c) := sliced_means (W0 m ρ c)
  have hd : (W1 m ρ c (Proc.devRef .tc main_v5) : FVec Ideal S50000x64 .f32) = dispersions (nodeTable m c) :=
    sliced_dispersions (W0 m ρ c)
  -- each later take finds them as the first stretch left them
  have h23 : (W2 m ρ c (Proc.devRef .tc main_v3) : IVec S800000 32) = tails (edgeList m c) := Eq.trans (by stretch_keeps) ht
  have h24 : (W2 m ρ c (Proc.devRef .tc main_v4) : FVec Ideal S50000x32 .f32) = means (nodeTable m c) :=
    Eq.trans (by stretch_keeps) hm
  have h31 : (W3 m ρ c (Proc.devRef .tc main_v1) : IVec S800000 32) = heads (edgeList m c) :=
    Eq.trans (by stretch_keeps) (Eq.trans (by stretch_keeps) hh)
  have h35 : (W3 m ρ c (Proc.devRef .tc main_v5) : FVec Ideal S50000x64 .f32) = dispersions (nodeTable m c) :=
    Eq.trans (by stretch_keeps) (Eq.trans (by stretch_keeps) hd)
  have h43 : (W4 m ρ c (Proc.devRef .tc main_v3) : IVec S800000 32) = tails (edgeList m c) :=
    Eq.trans (by stretch_keeps) (Eq.trans (by stretch_keeps) (Eq.trans (by stretch_keeps) ht))
  have h45 : (W4 m ρ c (Proc.devRef .tc main_v5) : FVec Ideal S50000x64 .f32) = dispersions (nodeTable m c) :=
    Eq.trans (by stretch_keeps) (Eq.trans (by stretch_keeps) (Eq.trans (by stretch_keeps) hd))
  -- the four takes, each a plain gather since its indices are in range, reach the joining stretch untouched
  have e6 : (W5 m ρ c (Proc.devRef .tc main_v6) : FVec Ideal S800000x32 .f32)
      = Host.gather gather_S50000x32_S800000x1_S800000x32_1_0_n_n_0_1_132 (means (nodeTable m c)) (startColumn 50000#32 (heads (edgeList m c))) :=
    Eq.trans (by stretch_keeps) (Eq.trans (by stretch_keeps) (Eq.trans (by stretch_keeps)
      ((took_heads_means (W1 m ρ c)).trans ((congrArg₂ take32 hm hh).trans (take32_eq _ _ (heads_range _ hE))))))
  have e7 : (W5 m ρ c (Proc.devRef .tc main_v7) : FVec Ideal S800000x32 .f32)
      = Host.gather gather_S50000x32_S800000x1_S800000x32_1_0_n_n_0_1_132 (means (nodeTable m c)) (startColumn 50000#32 (tails (edgeList m c))) :=
    Eq.trans (by stretch_keeps) (Eq.trans (by stretch_keeps)
      ((took_tails_means (W2 m ρ c)).trans ((congrArg₂ take32 h24 h23).trans (take32_eq _ _ (tails_range _ hE)))))
  have e8 : (W5 m ρ c (Proc.devRef .tc main_v8) : FVec Ideal S800000x64 .f32)
      = Host.gather gather_S50000x64_S800000x1_S800000x64_1_0_n_n_0_1_164 (dispersions (nodeTable m c)) (startColumn 50000#32 (heads (edgeList m c))) :=
    Eq.trans (by stretch_keeps)
      ((took_heads_dispersions (W3 m ρ c)).trans ((congrArg₂ take64 h35 h31).trans (take64_eq _ _ (heads_range _ hE))))
  have e9 : (W5 m ρ c (Proc.devRef .tc main_v9) : FVec Ideal S800000x64 .f32)
      = Host.gather gather_S50000x64_S800000x1_S800000x64_1_0_n_n_0_1_164 (dispersions (nodeTable m c)) (startColumn 50000#32 (tails (edgeList m c))) :=
    (took_tails_dispersions (W4 m ρ c)).trans ((congrArg₂ take64 h45 h43).trans (take64_eq _ _ (tails_range _ hE)))
  exact (joined (W5 m ρ c)).trans (assemble_congr e6 e7 e8 e9)
theorem entry0_mat0 (c : Dev nD) : MlpRegion.mat0 (V6 m ρ) c = argW0 m c := by
  show W6 m ρ c (Proc.devRef .tc main_arg3) = m ((c.tc : Thread nD τ).loc main_arg3)
  walk_back
  rfl
theorem entry0_bias0 (c : Dev nD) : MlpRegion.bias0 (V6 m ρ) c = shapeCast S1x64 (argB0 m c) shapeCasts_S64_S1x64 := by
  have h5 : W5 m ρ c (Proc.devRef .tc main_arg4) = m ((c.tc : Thread nD τ).loc main_arg4) := by walk_back; rfl
  exact (reshaped_bias0 (W5 m ρ c)).trans (congrArg (fun a : S64.Idx → EReal => shapeCast S1x64 a shapeCasts_S64_S1x64) h5)
theorem entry0_mat1 (c : Dev nD) : MlpRegion.mat1 (V6 m ρ) c = argW1 m c := by
  show W6 m ρ c (Proc.devRef .tc main_arg5) = m ((c.tc : Thread nD τ).loc main_arg5)
  walk_back
  rfl
theorem entry0_bias1 (c : Dev nD) : MlpRegion.bias1 (V6 m ρ) c = shapeCast S1x64 (argB1 m c) shapeCasts_S64_S1x64 := by
  have h5 : W5 m ρ c (Proc.devRef .tc main_arg6) = m ((c.tc : Thread nD τ).loc main_arg6) := by walk_back; rfl
  exact (reshaped_bias1 (W5 m ρ c)).trans (congrArg (fun a : S64.Idx → EReal => shapeCast S1x64 a shapeCasts_S64_S1x64) h5)
theorem entry0_lastRow (c : Dev nD) : MlpRegion.lastRow (V6 m ρ) c = shapeCast S1x64 (argW2 m c) shapeCasts_S64x1_S1x64 := by
  have h5 : W5 m ρ c (Proc.devRef .tc main_arg7) = m ((c.tc : Thread nD τ).loc main_arg7) := by walk_back; rfl
  exact (reshaped_lastRow (W5 m ρ c)).trans (congrArg (fun a : S64x1.Idx → EReal => shapeCast S1x64 a shapeCasts_S64x1_S1x64) h5)
theorem entry0_bias2 (c : Dev nD) : MlpRegion.bias2 (V6 m ρ) c = shapeCast S1x1 (argB2 m c) shapeCasts_S1_S1x1 := by
  have h5 : W5 m ρ c (Proc.devRef .tc main_arg8) = m ((c.tc : Thread nD τ).loc main_arg8) := by walk_back; rfl
  exact (reshaped_bias2 (W5 m ρ c)).trans (congrArg (fun a : S1.Idx → EReal => shapeCast S1x1 a shapeCasts_S1_S1x1) h5)

/-! ## What the second pallas_call finds -/

theorem entry1_weights (c : Dev nD) : GateRegion.weights (V10 m ρ) c = (dat0 (V6 m ρ) c).arrAt 7 cfg0.N := by
  -- the three stretches between the two pallas_calls write other buffers
  show W10 m ρ c (Proc.devRef .tc main_v17) = _
  refine Eq.trans (by stretch_keeps) (Eq.trans (by stretch_keeps) (Eq.trans (by stretch_keeps) ?_))
  exact W7_arr m ρ c 7
theorem entry1_partners (c : Dev nD) (hR : ReverseInRange (revTable m c)) :
    GateRegion.partners (V10 m ρ) c = partnerRow ((dat0 (V6 m ρ) c).arrAt 7 cfg0.N) (revTable m c) := by
  -- the row of weights as a vector, and the reverse-edge table as launched
  have h18 : (W8 m ρ c (Proc.devRef .tc main_v18) : FVec Ideal S800000 .f32)
      = shapeCast S800000 ((dat0 (V6 m ρ) c).arrAt 7 cfg0.N : S1x800000.Idx → EReal) shapeCasts_S1x800000_S800000 :=
    (row_as_vector (W7 m ρ c)).trans
      (congrArg (fun a : S1x800000.Idx → EReal => shapeCast S800000 a shapeCasts_S1x800000_S800000) (W7_arr m ρ c 7))
  have h2 : (W8 m ρ c (Proc.devRef .tc main_arg2) : IVec S800000 32) = revTable m c := by walk_back; rfl
  -- the take is a plain gather since its indices are in range
  have h19 : (W9 m ρ c (Proc.devRef .tc main_v19) : FVec Ideal S800000 .f32)
      = Host.gather gather_S800000_S800000x1_S800000_n_0_n_n_0_1_1
          (shapeCast S800000 ((dat0 (V6 m ρ) c).arrAt 7 cfg0.N : S1x800000.Idx → EReal) shapeCasts_S1x800000_S800000)
          (startColumn 800000#32 (revTable m c)) :=
    (took_partners (W8 m ρ c)).trans ((congrArg₂ take1 h18 h2).trans (take1_eq _ _ hR))
  exact (vector_as_row (W9 m ρ c)).trans
    (congrArg (fun a : S800000.Idx → EReal => shapeCast S1x800000 a shapeCasts_S800000_S1x800000) h19)

/-! ## The result -/

theorem result_column (c : Dev nD) :
    (W12 m ρ c (Proc.devRef .tc main_v22) : S800000x1.Idx → EReal)
      = shapeCast S800000x1 ((dat1 (V10 m ρ) c).arrAt 2 cfg1.N) shapeCasts_S1x800000_S800000x1 := by
  exact (reshaped_result (W11 m ρ c)).trans
    (congrArg (fun a : S1x800000.Idx → EReal => shapeCast S800000x1 a shapeCasts_S1x800000_S800000x1) (W11_arr m ρ c 2))

end Cert.KernelIdeal.HostSide

end
-- ==== Proof.KernelValue.lean ====
/-
  The kernel program's result, entry by entry.

  The result column's entry `e` is entry `(0, e)` of the second pallas_call's output row, the product of the two
  rows that call reads: the first call's row of weights, whose entry `e` is the perceptron's weight of edge `e`
  over the feature table the host built, and the host's take of that same row at the reverse-edge table, whose
  entry `e` is the weight at the position the table names (wrapped once, then clamped).  So the result is
  `EdgeWeight.gated` of the kernel's weights.
-/
import proofs.«417381_j8976481648849_3_alg».proof.Proof.KernelHost
import Idealize.ShloMosaic.Lib.SortFacts
import Idealize.ShloMosaic.Lib.StableHlo.Predicate

set_option maxRecDepth 16384

noncomputable section

namespace Cert.KernelIdeal.EdgeResult

open Cert.KernelIdeal Cert.KernelIdeal.Gen Cert.KernelIdeal.HostSide
open Idealize.ShloMosaic Idealize.ShloMosaic.TcCoe Idealize.SL.Sem Idealize.ShloMosaic.ValueIdx
open Idealize.ShloMosaic.StableHlo

/-- A signed index list wrapped once by the table's length: a negative entry counts from the end. -/
def wrapped (n : BitVec 32) (r : IVec S800000 32) : IVec S800000 32 :=
  select (cmpi .slt r (broadcastInDim S800000 ![] bcast_S_S800000 (constantI S_ 32 0#32)))
    (addi r (broadcastInDim S800000 ![] bcast_S_S800000 (constantI S_ 32 n))) r

theorem ix1_eq_ofFin {n : Nat} (p : Fin n) : (ix1 p : (⟨1, ![n]⟩ : Shape).Idx) = Shape.Idx.ofFin p :=
  funext fun a => by
    have ha : a = 0 := Subsingleton.elim _ _
    subst ha
    exact (Shape.Idx.ofFin_zero p).symm

/-- The column of start positions read at row `e` is the wrapped list at `e`. -/
theorem startColumn_at (n : BitVec 32) (r : IVec S800000 32) (e : Fin 800000) :
    startColumn n r (Predicate.ixP e) = wrapped n r (ix1 e) := by
  unfold startColumn wrapped
  exact (Predicate.bcast_col1 bcast_S800000_S800000x1_0 _ e).trans (congrArg _ (ix1_eq_ofFin e).symm)

/-- The taken row at column `e` is the row at the position the wrapped table entry names, clamped into the row. -/
theorem partnerRow_at (w : S1x800000.Idx → EReal) (rev : IVec S800000 32) (e : Fin 800000) :
    partnerRow w rev (ix2 0 e)
      = w (ix2 0 (EdgeWeight.clampPos 800000 (by decide) (wrapped 800000#32 rev (ix1 e)))) := by
  unfold partnerRow
  rw [shapeCast_apply _ shapeCasts_S800000_S1x800000 (ix2 0 e) (ix1 e)
    (by rw [Shape.rowMajor_val_one, Shape.rowMajor_val_two]; show e.val = 0 * 800000 + e.val; omega)]
  refine (congrArg _ (ix1_eq_ofFin e)).trans ((Predicate.gather_take _ rfl rfl rfl rfl _ _ e (by decide)).trans ?_)
  exact shapeCast_apply w shapeCasts_S1x800000_S800000 _ (ix2 0 (EdgeWeight.clampPos 800000 (by decide) (wrapped 800000#32 rev (ix1 e))))
    (by rw [Shape.rowMajor_val_one, Shape.rowMajor_val_two]
        show 0 * 800000 + min (wrapped 800000#32 rev (ix1 e)).toInt.toNat (800000 - 1)
          = min (startColumn 800000#32 rev (Predicate.ixP e)).toInt.toNat (800000 - 1)
        rw [startColumn_at]; omega)

variable (m : (ℓ : Loc nD τ sig) → Buf (Elt Ideal) ℓ) (ρ : Dev nD → PrngReg)

/-- The kernel's weight of every edge, from the launch contents. -/
def kernelWeight (c : Dev nD) : Fin 800000 → EReal :=
  EdgeWeight.weight (fun e j => featureTable (nodeTable m c) (edgeList m c) (ix2 e j)) (fun j k => argW0 m c (ix2 j k))
    (fun k => argB0 m c (ix1 k)) (fun j k => argW1 m c (ix2 j k)) (fun k => argB1 m c (ix1 k))
    (fun k => argW2 m c (ix2 k 0)) (argB2 m c (ix1 0))

/-- A bias vector kept as a 1 × 64 row reads, at (0, k), the vector at k. -/
theorem biasRow_at (b : FVec Ideal S64 .f32) (k : Fin 64) : shapeCast S1x64 b shapeCasts_S64_S1x64 (ix2 0 k) = b (ix1 k) :=
  shapeCast_apply b shapeCasts_S64_S1x64 (ix2 0 k) (ix1 k)
    (by rw [Shape.rowMajor_val_one, Shape.rowMajor_val_two]; show k.val = 0 * 64 + k.val; omega)
/-- The last layer's 64 × 1 column kept as a 1 × 64 row reads, at (0, k), the column at (k, 0). -/
theorem lastRow_at (w : FVec Ideal S64x1 .f32) (k : Fin 64) : shapeCast S1x64 w shapeCasts_S64x1_S1x64 (ix2 0 k) = w (ix2 k 0) :=
  shapeCast_apply w shapeCasts_S64x1_S1x64 (ix2 0 k) (ix2 k 0)
    (by rw [Shape.rowMajor_val_two, Shape.rowMajor_val_two]; show k.val * 1 + 0 = 0 * 64 + k.val; omega)
/-- The last bias kept as a 1 × 1 array reads the bias. -/
theorem lastBias_at (b : FVec Ideal S1 .f32) : shapeCast S1x1 b shapeCasts_S1_S1x1 (ix2 0 0) = b (ix1 0) :=
  shapeCast_apply b shapeCasts_S1_S1x1 (ix2 0 0) (ix1 0)
    (by rw [Shape.rowMajor_val_one, Shape.rowMajor_val_two]; rfl)

/-- The first pallas_call's row of weights at column `e`, in the launch contents. -/
theorem weightRow_at (c : Dev nD) (hE : EndpointsInRange (edgeList m c)) (e : Fin 800000) :
    ((dat0 (V6 m ρ) c).arrAt 7 cfg0.N : S1x800000.Idx → EReal) (ix2 0 e) = kernelWeight m c e := by
  rw [MlpRegion.row_after (V6 m ρ) c, entry0_features m ρ c hE, entry0_mat0, entry0_bias0, entry0_mat1, entry0_bias1,
    entry0_lastRow, entry0_bias2]
  unfold MlpRegion.weightRow kernelWeight
  simp only [biasRow_at, lastRow_at, lastBias_at]

/-- THE RESULT: entry `e` of the result column is the edge's weight times the weight at the position its
    reverse-edge entry names. -/
theorem result_entry (c : Dev nD) (hE : EndpointsInRange (edgeList m c)) (hR : ReverseInRange (revTable m c)) (e : Fin 800000) :
    (W12 m ρ c (Proc.devRef .tc main_v22) : S800000x1.Idx → EReal) (ix2 e 0)
      = EdgeWeight.gated (kernelWeight m c)
          (fun e' => EdgeWeight.clampPos 800000 (by decide) (wrapped 800000#32 (revTable m c) (ix1 e'))) e := by
  unfold EdgeWeight.gated
  rw [result_column, shapeCast_apply _ shapeCasts_S1x800000_S800000x1 (ix2 e 0) (ix2 0 e)
    (by rw [Shape.rowMajor_val_two, Shape.rowMajor_val_two]; show 0 * 800000 + e.val = e.val * 1 + 0; omega)]
  rw [GateRegion.row_after (V10 m ρ) c]
  show GateRegion.weights (V10 m ρ) c (ix2 0 e) * GateRegion.partners (V10 m ρ) c (ix2 0 e) = _
  rw [entry1_weights, entry1_partners m ρ c hR, partnerRow_at, weightRow_at m ρ c hE, weightRow_at m ρ c hE]

end Cert.KernelIdeal.EdgeResult

end
-- ==== Proof.RefValue.lean ====
/-
  The reference program, read at an index.

  The reference builds the same feature table on the host, applies the perceptron as three matrix products
  with broadcast biases and positive parts, the logistic function spelt out as 1 / (1 + exp (−z)), and
  multiplies each edge's weight by the weight at the (wrapped, then clamped) position its reverse-edge entry
  names.  Index by index its weight column is EdgeWeight.weight of its own feature table, and its result is
  EdgeWeight.gated of that column.  One law of its own: it joins the two endpoints' dispersion rows side by
  side, reshapes the 128 columns as 2 × 64 and sums over the 2, which is adding the two rows.
-/
import proofs.«417381_j8976481648849_3_alg».proof.Proof.Gen.ReferenceIdeal.Run
import proofs.«417381_j8976481648849_3_alg».proof.Proof.Gen.ReferenceIdeal.Read
import proofs.«417381_j8976481648849_3_alg».proof.Proof.EdgeWeight
import Idealize.ShloMosaic.Lib.Pipeline.Value
import Idealize.ShloMosaic.Lib.ValueIdx
import Idealize.ShloMosaic.Lib.StableHlo.Predicate
import Idealize.ShloMosaic.PureOps.Ideal
import Idealize.ShloMosaic.PureOps.Ideal.Laws

set_option maxRecDepth 16384

noncomputable section

namespace Cert.ReferenceIdeal.EdgeValue

open Cert.ReferenceIdeal Cert.ReferenceIdeal.Gen Cert.ReferenceIdeal.Read
open Idealize.ShloMosaic Idealize.ShloMosaic.TcCoe Idealize.SL.Sem Idealize.ShloMosaic.ValueIdx

variable (x0 : (⟨S50000x96, .f32⟩ : BufTy).Contents (Elt Ideal)) (x1 : (⟨S2x800000, .i32⟩ : BufTy).Contents (Elt Ideal))
  (x2 : (⟨S800000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))

/-! ## The two halves of the joined dispersion rows -/

/-- Column `j` of the joined rows is column `j` of the first endpoint's row. -/
theorem joined_left (e : Fin 800000) (j : Fin 64) :
    val_main_v36 (F := Ideal) x0 x1 (idx_main_v37 (ix2 e j) 0) = val_main_v27 (F := Ideal) x0 x1 (ix2 e j) := by
  rw [val_main_v36_apply]
  unfold val_main_v35
  refine concatenate_pair_apply_left 1 _ _ concatenates_S800000x64_S800000x64_S800000x128_d1 _ rfl (ix2 e j) (fun b => ?_)
  have he := e.isLt
  have hj := j.isLt
  match b with
  | ⟨0, _⟩ => show e.val = ((e.val * 2 + 0) * 64 + j.val) / 128; omega
  | ⟨1, _⟩ => show j.val = ((e.val * 2 + 0) * 64 + j.val) % 128; omega

/-- Column `64 + j` of the joined rows is column `j` of the second endpoint's row. -/
theorem joined_right (e : Fin 800000) (j : Fin 64) :
    val_main_v36 (F := Ideal) x0 x1 (idx_main_v37 (ix2 e j) 1) = val_main_v34 (F := Ideal) x0 x1 (ix2 e j) := by
  rw [val_main_v36_apply]
  unfold val_main_v35
  have he := e.isLt
  have hj := j.isLt
  refine concatenate_pair_apply_right 1 _ _ concatenates_S800000x64_S800000x64_S800000x128_d1 _ rfl rfl (ix2 e j) (fun b hb => ?_) ?_
  · match b with
    | ⟨0, _⟩ => show e.val = ((e.val * 2 + 1) * 64 + j.val) / 128; omega
    | ⟨1, _⟩ => exact absurd rfl hb
  · show j.val + 64 = ((e.val * 2 + 1) * 64 + j.val) % 128; omega

/-- Summing the two halves of the joined dispersion rows is adding the two endpoints' rows. -/
theorem dispersions_added :
    val_main_v37 (F := Ideal) x0 x1
      = addf (F := Ideal) (s := S800000x64) (φ := .f32) (val_main_v27 (F := Ideal) x0 x1) (val_main_v34 (F := Ideal) x0 x1) := by
  funext i
  obtain ⟨e, j, rfl⟩ : ∃ (e : Fin 800000) (j : Fin 64), i = ix2 e j := ⟨i 0, i 1, eq_ix2 i⟩
  rw [val_main_v37_apply, Fin.sum_univ_two, joined_left, joined_right, val_main_cst_apply, addf_apply,
    Ideal.ofBits_def, Ideal.ofBits_zero_f32, zero_add]

/-! ## The perceptron, layer by layer -/

/-- The word `0x3F800000` is the number one. -/
theorem one_word : Ideal.ofBits .f32 0x3F800000#32 = 1 := by
  simp [Ideal.ofBits, Ideal.ieee, -EReal.coe_mul]; norm_num

/-- The first hidden layer at edge `e`, unit `k`. -/
theorem hidden0 (e : Fin 800000) (k : Fin 64) :
    val_main_v43 (F := Ideal) x0 x1 x3 x4 (ix2 e k)
      = EdgeWeight.layer (fun e j => val_main_v38 (F := Ideal) x0 x1 (ix2 e j)) (fun j k => x3 (ix2 j k))
          (fun k => x4 (ix1 k)) e k := by
  have hl : ∀ q : Fin 128, lidx_main_v39 (ix2 e k) q = ix2 e q := fun q =>
    funext fun a => Fin.ext (by match a with | ⟨0, _⟩ => rfl | ⟨1, _⟩ => rfl)
  have hr : ∀ q : Fin 128, ridx_main_v39 (ix2 e k) q = ix2 q k := fun q =>
    funext fun a => Fin.ext (by match a with | ⟨0, _⟩ => rfl | ⟨1, _⟩ => rfl)
  have hb : idx_main_v40 (idx_main_v41 (ix2 e k)) = ix1 k :=
    funext fun a => Fin.ext (by match a with | ⟨0, _⟩ => rfl)
  unfold EdgeWeight.layer
  rw [val_main_v43_apply, val_main_v42_apply, val_main_v39_apply, val_main_v41_apply, val_main_v40_apply,
    val_main_call0_v0_apply, val_main_call0_cst_apply]
  simp only [hl, hr, hb, Ideal.maximumf_def, Ideal.addf_def, Ideal.ofBits_def, Ideal.ofBits_zero_f32]

/-- The second hidden layer at edge `e`, unit `k`. -/
theorem hidden1 (e : Fin 800000) (k : Fin 64) :
    val_main_v48 (F := Ideal) x0 x1 x3 x4 x5 x6 (ix2 e k)
      = EdgeWeight.layer (EdgeWeight.layer (fun e j => val_main_v38 (F := Ideal) x0 x1 (ix2 e j)) (fun j k => x3 (ix2 j k))
          (fun k => x4 (ix1 k))) (fun j k => x5 (ix2 j k)) (fun k => x6 (ix1 k)) e k := by
  have hl : ∀ q : Fin 64, lidx_main_v44 (ix2 e k) q = ix2 e q := fun q =>
    funext fun a => Fin.ext (by match a with | ⟨0, _⟩ => rfl | ⟨1, _⟩ => rfl)
  have hr : ∀ q : Fin 64, ridx_main_v44 (ix2 e k) q = ix2 q k := fun q =>
    funext fun a => Fin.ext (by match a with | ⟨0, _⟩ => rfl | ⟨1, _⟩ => rfl)
  have hb : idx_main_v45 (idx_main_v46 (ix2 e k)) = ix1 k :=
    funext fun a => Fin.ext (by match a with | ⟨0, _⟩ => rfl)
  rw [EdgeWeight.layer.eq_1 (EdgeWeight.layer _ _ _)]
  rw [val_main_v48_apply, val_main_v47_apply, val_main_v44_apply, val_main_v46_apply, val_main_v45_apply,
    val_main_call1_v0_apply, val_main_call1_cst_apply]
  simp only [hl, hr, hb, hidden0, Ideal.maximumf_def, Ideal.addf_def, Ideal.ofBits_def, Ideal.ofBits_zero_f32]

/-- The output unit before the logistic function, at edge `e`. -/
theorem logit_entry (e : Fin 800000) :
    val_main_v52 (F := Ideal) x0 x1 x3 x4 x5 x6 x7 x8 (ix2 e 0)
      = EdgeWeight.logit (EdgeWeight.layer (EdgeWeight.layer (fun e j => val_main_v38 (F := Ideal) x0 x1 (ix2 e j))
          (fun j k => x3 (ix2 j k)) (fun k => x4 (ix1 k))) (fun j k => x5 (ix2 j k)) (fun k => x6 (ix1 k)))
          (fun k => x7 (ix2 k 0)) (x8 (ix1 0)) e := by
  have hl : ∀ q : Fin 64, lidx_main_v49 (ix2 e 0) q = ix2 e q := fun q =>
    funext fun a => Fin.ext (by match a with | ⟨0, _⟩ => rfl | ⟨1, _⟩ => rfl)
  have hr : ∀ q : Fin 64, ridx_main_v49 (ix2 e 0) q = ix2 q 0 := fun q =>
    funext fun a => Fin.ext (by match a with | ⟨0, _⟩ => rfl | ⟨1, _⟩ => rfl)
  have hb : idx_main_v50 (idx_main_v51 (ix2 e 0)) = ix1 0 :=
    funext fun a => Fin.ext (by match a with | ⟨0, _⟩ => rfl)
  unfold EdgeWeight.logit
  rw [val_main_v52_apply, val_main_v49_apply, val_main_v51_apply, val_main_v50_apply]
  simp only [hl, hr, hb, hidden1, Ideal.addf_def]

/-- The reference's weight column at edge `e` is the perceptron's weight of its feature table's row `e`. -/
theorem weight_column (e : Fin 800000) :
    val_main_v58 (F := Ideal) x0 x1 x3 x4 x5 x6 x7 x8 (ix2 e 0)
      = EdgeWeight.weight (fun e j => val_main_v38 (F := Ideal) x0 x1 (ix2 e j)) (fun j k => x3 (ix2 j k)) (fun k => x4 (ix1 k))
          (fun j k => x5 (ix2 j k)) (fun k => x6 (ix1 k)) (fun k => x7 (ix2 k 0)) (x8 (ix1 0)) e := by
  unfold EdgeWeight.weight Ideal.logistic
  rw [val_main_v58_apply, val_main_v57_apply, val_main_cst_8_apply, val_main_v56_apply, val_main_v55_apply,
    val_main_cst_7_apply, val_main_v54_apply, val_main_v53_apply, logit_entry]
  simp only [Ideal.hostDivf_def, Ideal.addf_def, Ideal.hostUnary_exp_def, Ideal.hostNegf_def, Ideal.negf_def,
    Ideal.ofBits_def, one_word]

/-! ## The gather of the weight column -/

/-- The gather of a one-column table at a one-column table of start rows: entry `e` is the table's entry at the row
    the start names, read signed and clamped into the table. -/
theorem gather_column {α : Type} (x : S800000x1.Idx → α) (idx : IVec S800000x1 32) (e : Fin 800000) :
    Host.gather gather_S800000x1_S800000x1_S800000x1_1_0_n_n_0_1_11 x idx (ix2 e 0)
      = x (ix2 ⟨min (idx (ix2 e 0)).toInt.toNat (800000 - 1), by omega⟩ 0) := by
  unfold Host.gather
  congr 1
  funext a
  apply Fin.ext
  match a with
  | ⟨0, _⟩ =>
    -- the row axis: collapsed, named by the start index map, no batching
    have hb : (0 : Fin 2) ∉ gather_S800000x1_S800000x1_S800000x1_1_0_n_n_0_1_11.operandBatchingDims := by decide
    have hk : (0 : Fin 2) ∉ gather_S800000x1_S800000x1_S800000x1_1_0_n_n_0_1_11.sKept := by decide
    have hm : (0 : Fin 2) ∈ gather_S800000x1_S800000x1_S800000x1_1_0_n_n_0_1_11.startIndexMap := by decide
    have hsl : gather_S800000x1_S800000x1_S800000x1_1_0_n_n_0_1_11.sliceSizes 0 = 1 := rfl
    simp only [GatherDims.operandIdx, GatherDims.batchCoord_eq_zero _ _ _ hb, GatherDims.offCoord_eq_zero _ _ _ hk,
      Nat.add_zero, GatherDims.start, dif_pos hm]
    show min (idx _).toInt.toNat (800000 - gather_S800000x1_S800000x1_S800000x1_1_0_n_n_0_1_11.sliceSizes 0)
      = min (idx (ix2 e 0)).toInt.toNat (800000 - 1)
    rw [hsl]
    congr 3
    congr 1
    funext b
    match b with
    | ⟨0, _⟩ =>
      -- the start table's row is the result's row
      unfold GatherDims.siIdx
      rw [dif_neg (by decide +revert)]
      unfold GatherDims.siCoord
      apply Fin.ext
      simp only [Fin.val_cast]
      rfl
    | ⟨1, _⟩ =>
      -- the start table's one column holds the one component of the start index
      unfold GatherDims.siIdx
      rw [dif_pos (by decide +revert)]
      apply Fin.ext
      rfl
  | ⟨1, _⟩ =>
    -- the column axis has extent one
    have h0 := (gather_S800000x1_S800000x1_S800000x1_1_0_n_n_0_1_11.operandIdx (ix2 e 0) idx ⟨1, by decide⟩).isLt
    have h1 : (gather_S800000x1_S800000x1_S800000x1_1_0_n_n_0_1_11.operandIdx (ix2 e (0 : Fin 1)) idx ⟨1, by decide⟩).val < 1 := h0
    show (gather_S800000x1_S800000x1_S800000x1_1_0_n_n_0_1_11.operandIdx (ix2 e (0 : Fin 1)) idx ⟨1, by decide⟩).val = 0
    omega

/-- The reference's result at edge `e`: its weight times the weight at the position its reverse-edge entry names
    (wrapped once by the table's length, then clamped into the table). -/
theorem result_entry (e : Fin 800000) :
    val_main_v66 (F := Ideal) x0 x1 x2 x3 x4 x5 x6 x7 x8 (ix2 e 0)
      = EdgeWeight.gated (fun e' => val_main_v58 (F := Ideal) x0 x1 x3 x4 x5 x6 x7 x8 (ix2 e' 0))
          (fun e' => EdgeWeight.clampPos 800000 (by decide) (val_main_v63 (F := Ideal) x2 (ix1 e'))) e := by
  have hv : val_main_v64 (F := Ideal) x2 (ix2 e 0) = val_main_v63 (F := Ideal) x2 (ix1 e) := by
    rw [val_main_v64_apply]
    exact congrArg _ (funext fun a => Fin.ext (by match a with | ⟨0, _⟩ => rfl))
  unfold EdgeWeight.gated EdgeWeight.clampPos
  rw [val_main_v66_apply]
  unfold val_main_v65
  rw [gather_column, Ideal.mulf_def]
  simp only [hv]

end Cert.ReferenceIdeal.EdgeValue

end
-- ==== Proof.Bridge.lean ====
/-
  The two programs compute one function.

  Both build the same feature table (the reference sums the two halves of the joined dispersion rows where the
  kernel program adds the two rows: one array), both run the same perceptron on it (the kernel program inside
  its first pallas_call, the reference as matrix products on the host) and both multiply an edge's weight by the
  weight at the wrapped and clamped position the reverse-edge table names.  So the kernel program's result column
  is, entry by entry, the reference's — provided every index the kernel program's takes test is in range, which
  is the stated domain of the two integer inputs.
-/
import proofs.«417381_j8976481648849_3_alg».proof.Proof.KernelValue
import proofs.«417381_j8976481648849_3_alg».proof.Proof.RefValue

set_option maxRecDepth 16384

noncomputable section

namespace Cert.Proof.Bridge

open Idealize.ShloMosaic Idealize.ShloMosaic.TcCoe Idealize.SL.Sem Idealize.ShloMosaic.ValueIdx
open Cert.KernelIdeal.HostSide Cert.KernelIdeal.EdgeResult

/-- The kernel program's feature table is the reference's: the same takes of the same slices, joined the same
    way, the dispersion half an add on one side and a sum over the pair on the other. -/
theorem features_agree (x : FVec Ideal Cert.KernelIdeal.S50000x96 .f32) (ei : IVec Cert.KernelIdeal.S2x800000 32) :
    featureTable x ei = Cert.ReferenceIdeal.Read.val_main_v38 (F := Ideal) x ei := by
  unfold Cert.ReferenceIdeal.Read.val_main_v38
  rw [Cert.ReferenceIdeal.EdgeValue.dispersions_added]
  rfl

/-- Both programs wrap the reverse-edge table the same way. -/
theorem wrapped_agree (rev : IVec Cert.KernelIdeal.S800000 32) :
    wrapped 800000#32 rev = Cert.ReferenceIdeal.Read.val_main_v63 (F := Ideal) rev := rfl

variable (m : (ℓ : Loc Cert.KernelIdeal.nD Cert.KernelIdeal.τ Cert.KernelIdeal.sig) → Buf (Elt Ideal) ℓ)
  (ρ : Dev Cert.KernelIdeal.nD → PrngReg)

/-- The kernel program's weight of every edge is the reference's weight column. -/
theorem weights_agree (c : Dev Cert.KernelIdeal.nD) :
    kernelWeight m c = fun e => Cert.ReferenceIdeal.Read.val_main_v58 (F := Ideal) (nodeTable m c) (edgeList m c)
      (argW0 m c) (argB0 m c) (argW1 m c) (argB1 m c) (argW2 m c) (argB2 m c) (ix2 e 0) := by
  funext e
  rw [Cert.ReferenceIdeal.EdgeValue.weight_column]
  unfold kernelWeight
  rw [features_agree]

/-- THE RESULTS AGREE: with every endpoint index and every reverse-edge entry in range, the kernel program's
    result column is the reference's result of the same launch contents. -/
theorem results_agree (c : Dev Cert.KernelIdeal.nD) (hE : EndpointsInRange (edgeList m c)) (hR : ReverseInRange (revTable m c)) :
    (Cert.KernelIdeal.Gen.W12 m ρ c (Proc.devRef .tc Cert.KernelIdeal.main_v22) : Cert.KernelIdeal.S800000x1.Idx → EReal)
      = Cert.ReferenceIdeal.Read.val_main_v66 (F := Ideal) (nodeTable m c) (edgeList m c) (revTable m c)
          (argW0 m c) (argB0 m c) (argW1 m c) (argB1 m c) (argW2 m c) (argB2 m c) := by
  funext i
  obtain ⟨e, z, rfl⟩ : ∃ (e : Fin 800000) (z : Fin 1), i = ix2 e z := ⟨i 0, i 1, eq_ix2 i⟩
  have hz : z = 0 := Subsingleton.elim _ _
  subst hz
  rw [result_entry m ρ c hE hR e, Cert.ReferenceIdeal.EdgeValue.result_entry, weights_agree m c]
  rfl

end Cert.Proof.Bridge

end
-- ==== Proof.lean ====
/-
  The certificate of the learned edge weights.

  Kernel program: the host gathers the endpoint rows of the node table into a feature table, a first pallas_call
  runs a three-layer perceptron and a logistic function over it, 16000 edges per grid point, the host takes the
  weights named by the reverse-edge table, and a second pallas_call multiplies the two rows.  Reference: the same
  function as plain array operations.  The three frames are the generated ones (the reference's is its run with
  the result dropped); the ideal pass rewrote nothing, so `preserves` is trivial; the algebraic claim is the
  kernel program's run with its result named, the reference's run, and the equality of the two result columns
  on the stated domain of the index inputs.
-/
import proofs.«417381_j8976481648849_3_alg».proof.Defs
import proofs.«417381_j8976481648849_3_alg».proof.Proof.Gen.Kernel
import proofs.«417381_j8976481648849_3_alg».proof.Proof.Gen.Kernel.Skeleton
import proofs.«417381_j8976481648849_3_alg».proof.Proof.Gen.Kernel.Launch
import proofs.«417381_j8976481648849_3_alg».proof.Proof.Gen.Kernel.Points
import proofs.«417381_j8976481648849_3_alg».proof.Proof.Gen.Kernel.Frame
import proofs.«417381_j8976481648849_3_alg».proof.Proof.Gen.KernelIdeal
import proofs.«417381_j8976481648849_3_alg».proof.Proof.Gen.KernelIdeal.Skeleton
import proofs.«417381_j8976481648849_3_alg».proof.Proof.Gen.KernelIdeal.Launch
import proofs.«417381_j8976481648849_3_alg».proof.Proof.Gen.KernelIdeal.Points
import proofs.«417381_j8976481648849_3_alg».proof.Proof.Gen.KernelIdeal.Frame
import proofs.«417381_j8976481648849_3_alg».proof.Proof.Gen.ReferenceIdeal
import proofs.«417381_j8976481648849_3_alg».proof.Proof.Gen.ReferenceIdeal.Run
import proofs.«417381_j8976481648849_3_alg».proof.Proof.Gen.ReferenceIdeal.Read
import proofs.«417381_j8976481648849_3_alg».proof.Proof.Gen.Pre_finite_inputs
import proofs.«417381_j8976481648849_3_alg».proof.Proof.KernelRun
import proofs.«417381_j8976481648849_3_alg».proof.Proof.IndexRange
import proofs.«417381_j8976481648849_3_alg».proof.Proof.Bridge
import Idealize.ShloMosaic.Adequacy
import Idealize.ShloMosaic.Init

noncomputable section

namespace Cert.Proof

open Idealize.ShloMosaic Idealize.SL.Sem

instance : Cert.Pre_finite_inputs.Facts := Cert.Pre_finite_inputs.Gen.facts

/-- The two idealized programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hrange := fun c => Cert.Pre_finite_inputs.Range.index_ranges _ _ _ _ _ _ _ _ _ (hpre c)
  refine ⟨fun c => Cert.KernelIdeal.Gen.W12 m ρ c (Proc.devRef .tc Cert.KernelIdeal.main_v22),
    Cert.KernelIdeal.Gen.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.Proof.Bridge.results_agree m ρ c (hrange c).1 (hrange c).2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
